-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x256x128 : Shape := ⟨3, ![3, 256, 128]⟩
abbrev S3x256 : Shape := ⟨2, ![3, 256]⟩
abbrev S256x256 : Shape := ⟨2, ![256, 256]⟩
abbrev S256 : Shape := ⟨1, ![256]⟩
abbrev S10x256 : Shape := ⟨2, ![10, 256]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x256x128 : S_.BroadcastsInDim S3x256x128 (![] : Fin 0 → Fin S3x256x128.rank)
  reducesTo_S3x256x128_S_d0_1_2 : S3x256x128.ReducesTo [0, 1, 2] S_
  bcast_S_S3x256 : S_.BroadcastsInDim S3x256 (![] : Fin 0 → Fin S3x256.rank)
  reducesTo_S3x256_S_d0_1 : S3x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S10x256 : S_.BroadcastsInDim S10x256 (![] : Fin 0 → Fin S10x256.rank)
  reducesTo_S10x256_S_d0_1 : S10x256.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S10x256 .f32) (main_arg8 : FVec F S10 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S10x256 .f32 := Host.absf main_arg7
  let main_cst_10 : FVec F S_ .f32 := constant S_ .f32 0x7F800000#32
  let main_v30 : FVec F S10x256 .f32 := broadcastInDim S10x256 ![] bcast_S_S10x256 main_cst_10
  let main_v31 : IVec S10x256 1 := cmpf .olt main_v29 main_v30
  let main_c_11 : IVec S_ 1 := constantI S_ 1 1#1
  let main_v32 : IVec S_ 1 := (fun x v => Host.reduce IntOp.andi x v reducesTo_S10x256_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S3x256x128 .f32) (main_arg3 : FVec F S3x256x128 .f32) (main_arg4 : FVec F S3x256 .f32) (main_arg5 : FVec F S256x256 .f32) (main_arg6 : FVec F S256 .f32) (main_arg7 : FVec F S10x256 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x256x128 .f32 := Host.absf main_arg2
  let main_cst_0 : FVec F S_ .f32 := constant S_ .f32 0x7F800000#32
  let main_v5 : FVec F S3x256x128 .f32 := broadcastInDim S3x256x128 ![] bcast_S_S3x256x128 main_cst_0
  let main_v6 : IVec S3x256x128 1 := cmpf .olt main_v4 main_v5
  let main_c_1 : IVec S_ 1 := constantI S_ 1 1#1
  let main_v7 : IVec S_ 1 := (fun x v => Host.reduce IntOp.andi x v reducesTo_S3x256x128_S_d0_1_2 h_S_) main_v6 main_c_1
  let main_v8 : IVec S_ 1 := andi main_v3 main_v7
  let main_v9 : FVec F S3x256x128 .f32 := Host.absf main_arg3
  let main_cst_2 : FVec F S_ .f32 := constant S_ .f32 0x7F800000#32
  let main_v10 : FVec F S3x256x128 .f32 := broadcastInDim S3x256x128 ![] bcast_S_S3x256x128 main_cst_2
  let main_v11 : IVec S3x256x128 1 := cmpf .olt main_v9 main_v10
  let main_c_3 : IVec S_ 1 := constantI S_ 1 1#1
  let main_v12 : IVec S_ 1 := (fun x v => Host.reduce IntOp.andi x v reducesTo_S3x256x128_S_d0_1_2 h_S_) main_v11 main_c_3
  let main_v13 : IVec S_ 1 := andi main_v8 main_v12
  let main_v14 : FVec F S3x256 .f32 := Host.absf main_arg4
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S3x256x128 : Shape := ⟨3, ![3, 256, 128]⟩
abbrev S3x256 : Shape := ⟨2, ![3, 256]⟩
abbrev S256x256 : Shape := ⟨2, ![256, 256]⟩
abbrev S256 : Shape := ⟨1, ![256]⟩
abbrev S10x256 : Shape := ⟨2, ![10, 256]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x256x128 : Shape := ⟨3, ![1, 256, 128]⟩
abbrev S256x128 : Shape := ⟨2, ![256, 128]⟩
abbrev S128x256 : Shape := ⟨2, ![128, 256]⟩
abbrev S1x256 : Shape := ⟨2, ![1, 256]⟩
abbrev S256x10 : Shape := ⟨2, ![256, 10]⟩
abbrev S1x10 : Shape := ⟨2, ![1, 10]⟩
abbrev S4000x128 : Shape := ⟨2, ![4000, 128]⟩
abbrev S4000x256 : Shape := ⟨2, ![4000, 256]⟩
abbrev S1 : Shape := ⟨1, ![1]⟩
abbrev S1x1 : Shape := ⟨2, ![1, 1]⟩

abbrev nBuf : Space → Nat
  | .hbm => 53
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x256x128, .f32⟩
  | .hbm, ⟨3, _⟩ => ⟨S3x256x128, .f32⟩
  | .hbm, ⟨4, _⟩ => ⟨S3x256, .f32⟩
  | .hbm, ⟨5, _⟩ => ⟨S256x256, .f32⟩
  | .hbm, ⟨6, _⟩ => ⟨S256, .f32⟩
  | .hbm, ⟨7, _⟩ => ⟨S10x256, .f32⟩
  | .hbm, ⟨8, _⟩ => ⟨S10, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x256x128, .f32⟩
  | .hbm, ⟨40, _⟩ => ⟨S256x128, .f32⟩
  | .hbm, ⟨41, _⟩ => ⟨S128x256, .f32⟩
  | .hbm, ⟨42, _⟩ => ⟨S1x256x128, .f32⟩
  | .hbm, ⟨43, _⟩ => ⟨S256x128, .f32⟩
  | .hbm, ⟨44, _⟩ => ⟨S128x256, .f32⟩
  | .hbm, ⟨45, _⟩ => ⟨S1x256, .f32⟩
  | .hbm, ⟨46, _⟩ => ⟨S256, .f32⟩
  | .hbm, ⟨47, _⟩ => ⟨S1x256, .f32⟩
  | .hbm, ⟨48, _⟩ => ⟨S256x256, .f32⟩
  | .hbm, ⟨49, _⟩ => ⟨S1x256, .f32⟩
  | .hbm, ⟨50, _⟩ => ⟨S256x10, .f32⟩
  | .hbm, ⟨51, _⟩ => ⟨S1x10, .f32⟩
  | .hbm, ⟨52, _⟩ => ⟨S1x10, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x10, .f32⟩
  | .local _ .vmem, ⟨10, _⟩ => ⟨S1x10, .f32⟩
  | .local _ .vmem, ⟨11, _⟩ => ⟨S1x10, .f32⟩
  | .local _ .vmem, ⟨12, _⟩ => ⟨S1x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_17 : BitVec 32 := 0#32
  let v32 : BitVec 1 := Scalar.cmpi .ne v31 c0_i32_17
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x256x128_S1x256x128_2_0_0 : S3x256x128.Slices ![2, 0, 0] S1x256x128
  shapeCasts_S1x256x128_S256x128 : S1x256x128.ShapeCasts S256x128
  transposes_S256x128_S128x256_1_0 : S256x128.Transposes [1, 0] S128x256
  slices_S3x256_S1x256_2_0 : S3x256.Slices ![2, 0] S1x256
  shapeCasts_S1x256_S256 : S1x256.ShapeCasts S256
  shapeCasts_S256_S1x256 : S256.ShapeCasts S1x256
  transposes_S256x256_S256x256_1_0 : S256x256.Transposes [1, 0] S256x256
  transposes_S10x256_S256x10_1_0 : S10x256.Transposes [1, 0] S256x10
  shapeCasts_S10_S1x10 : S10.ShapeCasts S1x10
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1x256_S4000x256 : S1x256.Broadcasts S4000x256
  reduces_S4000x256_S256 : S4000x256.Reduces [0] S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  reduces_S1x10_S1 : S1x10.Reduces [1] S1
  shapeCasts_S1_S1x1 : S1.ShapeCasts S1x1
  broadcasts_S1x1_S1x10 : S1x1.Broadcasts S1x10
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x256_S4000x256_1_0_0_1_n_n_wf : DotDims.WF S4000x128 S128x256 S4000x256 [1] [0] [0] [1] [] []
  dot_S1x256_S256x256_S1x256_1_0_0_1_n_n_wf : DotDims.WF S1x256 S256x256 S1x256 [1] [0] [0] [1] [] []
  dot_S1x256_S256x10_S1x10_1_0_0_1_n_n_wf : DotDims.WF S1x256 S256x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x10.size a ≤ S256x10.size a
  hwx0_7 : ∀ i : grid0.Coords, EltTy.bits .f32 = 32 ∨ (Rect.block (s := S256x10) S256x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x10.size a ≤ S1x10.size a
  hwx0_9 : ∀ i : grid0.Coords, EltTy.bits .f32 = 32 ∨ (Rect.block (s := S1x10) S1x10.size (cc0_transform_9 i) (hinb0_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1x256_S256x10_S1x10_1_0_0_1_n_n : DotDims S1x256 S256x10 S1x10 where
  lhsContracting := [1]
  rhsContracting := [0]
  lhsNonContracting := [0]
  rhsNonContracting := [1]
  lhsBatch := []
  rhsBatch := []
  wf := dot_S1x256_S256x10_S1x10_1_0_0_1_n_n_wf

abbrev win0_0 : Pipeline.Window sig grid0 :=
  Pipeline.Window.ofSpec (Memref.whole main_v21) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S256x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S1x10.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S3x256x128 : Shape := ⟨3, ![3, 256, 128]⟩
abbrev S3x256 : Shape := ⟨2, ![3, 256]⟩
abbrev S256x256 : Shape := ⟨2, ![256, 256]⟩
abbrev S256 : Shape := ⟨1, ![256]⟩
abbrev S10x256 : Shape := ⟨2, ![10, 256]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x256x128 : Shape := ⟨3, ![1, 256, 128]⟩
abbrev S256x128 : Shape := ⟨2, ![256, 128]⟩
abbrev S128x256 : Shape := ⟨2, ![128, 256]⟩
abbrev S100000x256 : Shape := ⟨2, ![100000, 256]⟩
abbrev S1x256 : Shape := ⟨2, ![1, 256]⟩
abbrev S256x10 : Shape := ⟨2, ![256, 10]⟩
abbrev S1x10 : Shape := ⟨2, ![1, 10]⟩
abbrev S1 : Shape := ⟨1, ![1]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x256x128, .f32⟩
  | .hbm, ⟨3, _⟩ => ⟨S3x256x128, .f32⟩
  | .hbm, ⟨4, _⟩ => ⟨S3x256, .f32⟩
  | .hbm, ⟨5, _⟩ => ⟨S256x256, .f32⟩
  | .hbm, ⟨6, _⟩ => ⟨S256, .f32⟩
  | .hbm, ⟨7, _⟩ => ⟨S10x256, .f32⟩
  | .hbm, ⟨8, _⟩ => ⟨S10, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x256x128, .f32⟩
  | .hbm, ⟨40, _⟩ => ⟨S256x128, .f32⟩
  | .hbm, ⟨41, _⟩ => ⟨S128x256, .f32⟩
  | .hbm, ⟨42, _⟩ => ⟨S100000x256, .f32⟩
  | .hbm, ⟨43, _⟩ => ⟨S1x256x128, .f32⟩
  | .hbm, ⟨44, _⟩ => ⟨S256x128, .f32⟩
  | .hbm, ⟨45, _⟩ => ⟨S128x256, .f32⟩
  | .hbm, ⟨46, _⟩ => ⟨S100000x256, .f32⟩
  | .hbm, ⟨47, _⟩ => ⟨S100000x256, .f32⟩
  | .hbm, ⟨48, _⟩ => ⟨S1x256, .f32⟩
  | .hbm, ⟨49, _⟩ => ⟨S256, .f32⟩
  | .hbm, ⟨50, _⟩ => ⟨S1x256, .f32⟩
  | .hbm, ⟨51, _⟩ => ⟨S100000x256, .f32⟩
  | .hbm, ⟨52, _⟩ => ⟨S100000x256, .f32⟩
  | .hbm, ⟨53, _⟩ => ⟨S_, .f32⟩
  | .hbm, ⟨54, _⟩ => ⟨S100000x256, .f32⟩
  | .hbm, ⟨55, _⟩ => ⟨S100000x256, .f32⟩
  | .hbm, ⟨56, _⟩ => ⟨S1x256x128, .f32⟩
  | .hbm, ⟨57, _⟩ => ⟨S256x128, .f32⟩
  | .hbm, ⟨58, _⟩ => ⟨S128x256, .f32⟩
  | .hbm, ⟨59, _⟩ => ⟨S100000x256, .f32⟩
  | .hbm, ⟨60, _⟩ => ⟨S1x256x128, .f32⟩
  | .hbm, ⟨61, _⟩ => ⟨S256x128, .f32⟩
  | .hbm, ⟨62, _⟩ => ⟨S128x256, .f32⟩
  | .hbm, ⟨63, _⟩ => ⟨S100000x256, .f32⟩
  | .hbm, ⟨64, _⟩ => ⟨S100000x256, .f32⟩
  | .hbm, ⟨65, _⟩ => ⟨S1x256, .f32⟩
  | .hbm, ⟨66, _⟩ => ⟨S256, .f32⟩
  | .hbm, ⟨67, _⟩ => ⟨S1x256, .f32⟩
  | .hbm, ⟨68, _⟩ => ⟨S100000x256, .f32⟩
  | .hbm, ⟨69, _⟩ => ⟨S100000x256, .f32⟩
  | .hbm, ⟨70, _⟩ => ⟨S_, .f32⟩
  | .hbm, ⟨71, _⟩ => ⟨S100000x256, .f32⟩
  | .hbm, ⟨72, _⟩ => ⟨S100000x256, .f32⟩
  | .hbm, ⟨73, _⟩ => ⟨S1x256x128, .f32⟩
  | .hbm, ⟨74, _⟩ => ⟨S256x128, .f32⟩
  | .hbm, ⟨75, _⟩ => ⟨S128x256, .f32⟩
  | .hbm, ⟨76, _⟩ => ⟨S100000x256, .f32⟩
  | .hbm, ⟨77, _⟩ => ⟨S1x256x128, .f32⟩
  | .hbm, ⟨78, _⟩ => ⟨S256x128, .f32⟩
  | .hbm, ⟨79, _⟩ => ⟨S128x256, .f32⟩
  | .hbm, ⟨80, _⟩ => ⟨S100000x256, .f32⟩
  | .hbm, ⟨81, _⟩ => ⟨S100000x256, .f32⟩
  | .hbm, ⟨82, _⟩ => ⟨S1x256, .f32⟩
  | .hbm, ⟨83, _⟩ => ⟨S256, .f32⟩
  | .hbm, ⟨84, _⟩ => ⟨S1x256, .f32⟩
  | .hbm, ⟨85, _⟩ => ⟨S100000x256, .f32⟩
  | .hbm, ⟨86, _⟩ => ⟨S100000x256, .f32⟩
  | .hbm, ⟨87, _⟩ => ⟨S_, .f32⟩
  | .hbm, ⟨88, _⟩ => ⟨S100000x256, .f32⟩
  | .hbm, ⟨89, _⟩ => ⟨S100000x256, .f32⟩
  | .hbm, ⟨90, _⟩ => ⟨S_, .f32⟩
  | .hbm, ⟨91, _⟩ => ⟨S256, .f32⟩
  | .hbm, ⟨92, _⟩ => ⟨S1x256, .f32⟩
  | .hbm, ⟨93, _⟩ => ⟨S_, .f32⟩
  | .hbm, ⟨94, _⟩ => ⟨S1x256, .f32⟩
  | .hbm, ⟨95, _⟩ => ⟨S1x256, .f32⟩
  | .hbm, ⟨96, _⟩ => ⟨S256x256, .f32⟩
  | .hbm, ⟨97, _⟩ => ⟨S1x256, .f32⟩
  | .hbm, ⟨98, _⟩ => ⟨S1x256, .f32⟩
  | .hbm, ⟨99, _⟩ => ⟨S1x256, .f32⟩
  | .hbm, ⟨100, _⟩ => ⟨S_, .f32⟩
  | .hbm, ⟨101, _⟩ => ⟨S1x256, .f32⟩
  | .hbm, ⟨102, _⟩ => ⟨S1x256, .f32⟩
  | .hbm, ⟨103, _⟩ => ⟨S256x10, .f32⟩
  | .hbm, ⟨104, _⟩ => ⟨S1x10, .f32⟩
  | .hbm, ⟨105, _⟩ => ⟨S1x10, .f32⟩
  | .hbm, ⟨106, _⟩ => ⟨S1x10, .f32⟩
  | .hbm, ⟨107, _⟩ => ⟨S_, .f32⟩
  | .hbm, ⟨108, _⟩ => ⟨S1, .f32⟩
  | .hbm, ⟨109, _⟩ => ⟨S_, .f32⟩
  | .hbm, ⟨110, _⟩ => ⟨S1, .f32⟩
  | .hbm, ⟨111, _⟩ => ⟨S1, .f32⟩
  | .hbm, ⟨112, _⟩ => ⟨S1x1, .f32⟩
  | .hbm, ⟨113, _⟩ => ⟨S1x10, .f32⟩
  | .hbm, ⟨114, _⟩ => ⟨S1x10, .f32⟩
  | .hbm, ⟨115, _⟩ => ⟨S1x10, .f32⟩
  | .hbm, ⟨116, _⟩ => ⟨S_, .f32⟩
  | .hbm, ⟨117, _⟩ => ⟨S1, .f32⟩
  | .hbm, ⟨118, _⟩ => ⟨S1x1, .f32⟩
  | .hbm, ⟨119, _⟩ => ⟨S1x1, .f32⟩
  | .hbm, ⟨120, _⟩ => ⟨S1x10, .f32⟩
  | .hbm, ⟨121, _⟩ => ⟨S1x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_cst : Ref sig .tc := ⟨.hbm, 53, rfl⟩
abbrev main_call1_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call2_cst : Ref sig .tc := ⟨.hbm, 70, rfl⟩
abbrev main_call2_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_call3_cst : Ref sig .tc := ⟨.hbm, 87, rfl⟩
abbrev main_call3_v0 : Ref sig .tc := ⟨.hbm, 88, rfl⟩
abbrev main_v66 : Ref sig .tc := ⟨.hbm, 89, rfl⟩
abbrev main_cst_4 : Ref sig .tc := ⟨.hbm, 90, rfl⟩
abbrev main_v67 : Ref sig .tc := ⟨.hbm, 91, rfl⟩
abbrev main_v68 : Ref sig .tc := ⟨.hbm, 92, rfl⟩
abbrev main_cst_5 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call4_cst : Ref sig .tc := ⟨.hbm, 100, rfl⟩
abbrev main_call4_v0 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_call5_cst : Ref sig .tc := ⟨.hbm, 107, rfl⟩
abbrev main_call5_v0 : Ref sig .tc := ⟨.hbm, 108, rfl⟩
abbrev main_call5_cst_0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_cst_1 : Ref sig .tc := ⟨.hbm, 116, rfl⟩
abbrev main_call5_v7 : Ref sig .tc := ⟨.hbm, 117, rfl⟩
abbrev main_call5_v8 : Ref sig .tc := ⟨.hbm, 118, rfl⟩
abbrev main_call5_v9 : Ref sig .tc := ⟨.hbm, 119, rfl⟩
abbrev main_call5_v10 : Ref sig .tc := ⟨.hbm, 120, rfl⟩
abbrev main_v80 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x256x128_S1x256x128_0_0_0 : S3x256x128.Slices ![0, 0, 0] S1x256x128
  shapeCasts_S1x256x128_S256x128 : S1x256x128.ShapeCasts S256x128
  transposes_S256x128_S128x256_1_0 : S256x128.Transposes [1, 0] S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  slices_S3x256x128_S1x256x128_1_0_0 : S3x256x128.Slices ![1, 0, 0] S1x256x128
  slices_S3x256_S1x256_1_0 : S3x256.Slices ![1, 0] S1x256
  slices_S3x256x128_S1x256x128_2_0_0 : S3x256x128.Slices ![2, 0, 0] S1x256x128
  slices_S3x256_S1x256_2_0 : S3x256.Slices ![2, 0] S1x256
  reducesTo_S100000x256_S256_d0 : S100000x256.ReducesTo [0] S256
  h_S_ : 0 < S_.numel
  bcast_S_S1x256 : S_.BroadcastsInDim S1x256 (![] : Fin 0 → Fin S1x256.rank)
  transposes_S256x256_S256x256_1_0 : S256x256.Transposes [1, 0] S256x256
  transposes_S10x256_S256x10_1_0 : S10x256.Transposes [1, 0] S256x10
  bcast_S10_S1x10_1 : S10.BroadcastsInDim S1x10 (![1] : Fin 1 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S1x256_S256x256_S1x256_1_0_0_1_n_n_wf : DotDims.WF S1x256 S256x256 S1x256 [1] [0] [0] [1] [] []
  dot_S1x256_S256x10_S1x10_1_0_0_1_n_n_wf : DotDims.WF S1x256 S256x10 S1x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1x256_S256x10_S1x10_1_0_0_1_n_n : DotDims S1x256 S256x10 S1x10 where
  lhsContracting := [1]
  rhsContracting := [0]
  lhsNonContracting := [0]
  rhsNonContracting := [1]
  lhsBatch := []
  rhsBatch := []
  wf := dot_S1x256_S256x10_S1x10_1_0_0_1_n_n_wf

class Facts : Prop extends Facts₀ where

variable [Facts]
-- ==== Proof.Stores.lean ====
/-
  What the body's stores leave, read back as values.

  At every grid point the body adds to the carried [1,256] accumulator the column sums of its row block's hidden
  features; at the first point it has just stored zeros there, so the accumulator it reads is the zero row; at the
  last point it reads the accumulator it has just stored and writes the [1,10] result from it.  Each equation says
  that the contents the run found for a buffer are the corresponding pure term of the loaded blocks: one covering
  store through the whole buffer leaves its value, a load through the whole buffer reads the contents, and a load
  after a covering store reads what was stored.
-/
import proofs.«135105_j20547123544332_1_alg».proof.Proof.Gen.KernelIdeal.Frame
import Idealize.ShloMosaic.Lib.Pipeline.Value
import Idealize.ShloMosaic.Lib.Tactic

set_option maxRecDepth 16384

noncomputable section

namespace Cert.KernelIdeal.Stores

open Cert.KernelIdeal Cert.KernelIdeal.Gen Idealize.ShloMosaic Idealize.ShloMosaic.TcCoe Idealize.ShloMosaic.Tactic Idealize.SL.Sem

variable {F : FTy → Type} [FloatOps F] [Named F]

/-- The zero offsets of a rank-2 buffer, however they are spelt. -/
theorem hz : (![0, 0] : Fin 2 → Nat) = fun _ => 0 := funext fun a => by fin_cases a <;> rfl

/-- A middle point: the accumulator becomes the accumulator it found plus this block's column sums. -/
theorem scratch_mid (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x256 .f32) (harg11 : arg11.IsWhole) (hc0 : ¬cond0_0 i) (hc1 : ¬cond0_1 i)
    (x0 : Vec F S4000x128 .f32) (x1 : Vec F S4000x128 .f32) (x2 : Vec F S128x256 .f32) (x3 : Vec F S128x256 .f32) (x4 : Vec F S1x256 .f32) (x5 : Vec F S256x256 .f32) (x6 : Vec F S1x256 .f32) (x7 : Vec F S256x10 .f32) (x8 : Vec F S1x10 .f32) (xs0 : Vec F S1x256 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k0_pay2 x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4000x128) hz, View.ld_unit_zero (S := S128x256) hz, View.ld_unit_zero (S := S1x256) hz, View.ld_unit_zero (S := S256x256) hz, View.ld_unit_zero (S := S256x10) hz, View.ld_unit_zero (S := S1x10) hz]

/-- The first point: the accumulator is the zero row plus the first block's column sums. -/
theorem scratch_first (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x256 .f32) (harg11 : arg11.IsWhole) (hc0 : cond0_0 i) (hc1 : ¬cond0_1 i)
    (x0 : Vec F S4000x128 .f32) (x1 : Vec F S4000x128 .f32) (x2 : Vec F S128x256 .f32) (x3 : Vec F S128x256 .f32) (x4 : Vec F S1x256 .f32) (x5 : Vec F S256x256 .f32) (x6 : Vec F S1x256 .f32) (x7 : Vec F S256x10 .f32) (x8 : Vec F S1x10 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 = k0_pay2 x0 x1 x2 x3 x4 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8)]
  unfold kernelRun0_A
  dsimp only
  sl_unfold_words
  rw [View.canon_cons_unit_zero (S := S1x256) hz, View.readCov_unit_zero (S := S1x256) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4000x128) hz, View.ld_unit_zero (S := S128x256) hz, View.ld_unit_zero (S := S1x256) hz, View.ld_unit_zero (S := S256x256) hz, View.ld_unit_zero (S := S256x10) hz, View.ld_unit_zero (S := S1x10) hz]

/-- The last point, the accumulator: as at a middle point. -/
theorem scratch_last (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x256 .f32) (harg11 : arg11.IsWhole) (hc0 : ¬cond0_0 i) (hc1 : cond0_1 i)
    (x0 : Vec F S4000x128 .f32) (x1 : Vec F S4000x128 .f32) (x2 : Vec F S128x256 .f32) (x3 : Vec F S128x256 .f32) (x4 : Vec F S1x256 .f32) (x5 : Vec F S256x256 .f32) (x6 : Vec F S1x256 .f32) (x7 : Vec F S256x10 .f32) (x8 : Vec F S1x10 .f32) (xs0 : Vec F S1x256 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k0_pay2 x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4000x128) hz, View.ld_unit_zero (S := S128x256) hz, View.ld_unit_zero (S := S1x256) hz, View.ld_unit_zero (S := S256x256) hz, View.ld_unit_zero (S := S256x10) hz, View.ld_unit_zero (S := S1x10) hz]

/-- The last point, the result: the head applied to the accumulator just stored. -/
theorem out_last (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x256 .f32) (harg11 : arg11.IsWhole) (hc0 : ¬cond0_0 i) (hc1 : cond0_1 i)
    (x0 : Vec F S4000x128 .f32) (x1 : Vec F S4000x128 .f32) (x2 : Vec F S128x256 .f32) (x3 : Vec F S128x256 .f32) (x4 : Vec F S1x256 .f32) (x5 : Vec F S256x256 .f32) (x6 : Vec F S1x256 .f32) (x7 : Vec F S256x10 .f32) (x8 : Vec F S1x10 .f32) (xs0 : Vec F S1x256 .f32) :
    out0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k0_pay3 (k0_pay2 x0 x1 x2 x3 x4 xs0) x5 x6 x7 x8 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun0_C
  dsimp only
  sl_unfold_words
  rw [View.canon_unit_zero hz]
  simp only [View.readCov_unit_zero (S := S1x256) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4000x128) hz, View.ld_unit_zero (S := S128x256) hz, View.ld_unit_zero (S := S1x256) hz, View.ld_unit_zero (S := S256x256) hz, View.ld_unit_zero (S := S256x10) hz, View.ld_unit_zero (S := S1x10) hz]

end Cert.KernelIdeal.Stores

end
-- ==== Proof.Spec.lean ====
/-
  The mathematics both programs compute, stated once over plain finite index types and the extended reals.

  A graph of 100000 nodes with 128 features each: `A` is the mean of the neighbours' features, `X` the node's own.
  One layer gives every node r the hidden vector  h r j = max (Σₖ A r k · Wl k j + Σₖ X r k · Wr k j + b j) 0  (256 entries);
  the pooled vector is the mean over all nodes,  p j = (Σᵣ h r j) · (1/100000);  two dense layers follow,
  q j = max (Σₖ p k · W1 k j + b1 j) 0  and  z o = Σₖ q k · W2 k o + b2 o  (10 logits), and the result is the
  log-softmax of z taken with the usual shift by the row maximum:  (z o − M) − log Σₒ' exp (z o' − M),  M = max z.

  The only law used between the two programs' arrangements of this formula is that a sum over the 100000 rows is the
  sum over 25 blocks of 4000 consecutive rows of the block's own sum (`sum_rows`): addition of extended reals is
  commutative and associative, so no finiteness is needed for it.
-/
import Idealize.ShloMosaic.PureOps.Ideal
import Idealize.ShloMosaic.Lib.ValueIdx

noncomputable section

open scoped BigOperators

namespace Cert.SageHead

open Idealize.ShloMosaic

/-- The hidden feature j of node r: the rectified sum of the two matrix products and the bias. -/
def hidden (A X : Fin 100000 → Fin 128 → EReal) (Wl Wr : Fin 128 → Fin 256 → EReal) (b : Fin 256 → EReal)
    (r : Fin 100000) (j : Fin 256) : EReal :=
  max ((∑ k : Fin 128, A r k * Wl k j) + (∑ k : Fin 128, X r k * Wr k j) + b j) 0

/-- The mean over all nodes, taken as the sum times the rational 1/100000. -/
def meanPool (H : Fin 100000 → Fin 256 → EReal) (j : Fin 256) : EReal :=
  (∑ r : Fin 100000, H r j) * ((1 / 100000 : ℝ) : EReal)

/-- The first dense layer with its rectifier. -/
def dense1 (p : Fin 256 → EReal) (W : Fin 256 → Fin 256 → EReal) (b : Fin 256 → EReal) (j : Fin 256) : EReal :=
  max ((∑ k : Fin 256, p k * W k j) + b j) 0

/-- The second dense layer: the ten logits. -/
def dense2 (q : Fin 256 → EReal) (W : Fin 256 → Fin 10 → EReal) (b : Fin 10 → EReal) (o : Fin 10) : EReal :=
  (∑ k : Fin 256, q k * W k o) + b o

/-- The largest logit, as the fold of `max` from the value the pattern of −∞ denotes. -/
def rowMax (z : Fin 10 → EReal) : EReal :=
  (Finset.univ : Finset (Fin 10)).fold max (Ideal.ofBits .f32 0xFF800000#32) z

/-- The log-softmax with the shift by the row maximum. -/
def logSoftmax (z : Fin 10 → EReal) (o : Fin 10) : EReal :=
  (z o - rowMax z) - Ideal.log (∑ o' : Fin 10, Ideal.exp (z o' - rowMax z))

/-- The whole function: logit o of the pooled graph. -/
def logits (A X : Fin 100000 → Fin 128 → EReal) (Wl Wr : Fin 128 → Fin 256 → EReal) (b : Fin 256 → EReal)
    (W1 : Fin 256 → Fin 256 → EReal) (b1 : Fin 256 → EReal) (W2 : Fin 256 → Fin 10 → EReal) (b2 : Fin 10 → EReal)
    (o : Fin 10) : EReal :=
  logSoftmax (dense2 (dense1 (meanPool (hidden A X Wl Wr b)) W1 b1) W2 b2) o

/-- Row y of block t among the 100000 rows. -/
def rowOf (t : Fin 25) (y : Fin 4000) : Fin 100000 :=
  ⟨4000 * t.val + y.val, by have := t.isLt; have := y.isLt; omega⟩

theorem rowOf_val (t : Fin 25) (y : Fin 4000) : (rowOf t y).val = 4000 * t.val + y.val := rfl

/-- A sum over the 100000 rows is the sum over the 25 blocks of each block's 4000 rows. -/
theorem sum_rows (f : Fin 100000 → EReal) : ∑ r : Fin 100000, f r = ∑ t : Fin 25, ∑ y : Fin 4000, f (rowOf t y) := by
  have e : ∑ p : Fin 25 × Fin 4000, f (finProdFinEquiv p) = ∑ r : Fin (25 * 4000), f r :=
    Equiv.sum_comp (finProdFinEquiv (m := 25) (n := 4000)) f
  rw [show (∑ r : Fin 100000, f r) = ∑ r : Fin (25 * 4000), f r from rfl, ← e, Fintype.sum_prod_type]
  refine Finset.sum_congr rfl fun t _ => Finset.sum_congr rfl fun y _ => congrArg f (Fin.ext ?_)
  show y.val + 4000 * t.val = 4000 * t.val + y.val
  omega

/-- The reference's divisor 100000.0 denotes the real 100000. -/
theorem ofBits_100000 : Ideal.ofBits .f32 0x47C35000#32 = ((100000 : ℝ) : EReal) := by
  simp [Ideal.ofBits, Ideal.ieee, -EReal.coe_mul]; norm_num

/-- The maximum with the fold's own starting value changes nothing. -/
theorem max_init_rowMax (z : Fin 10 → EReal) : max (Ideal.ofBits .f32 0xFF800000#32) (rowMax z) = rowMax z :=
  max_eq_right ((Finset.le_fold_max _).mpr (Or.inl le_rfl))

end Cert.SageHead

end
-- ==== Proof.At.lean ====
/-
  The body's three stored values read at an index, over the extended reals.

  The accumulator update at column j is the old entry plus the sum over the block's 4000 rows of the rectified hidden
  feature; the zero row is zero; the result at logit o is the log-softmax of the two dense layers applied to the
  accumulator scaled by the named reciprocal 1/100000.  A change of float format is the identity here, a product into
  a zero accumulator is the plain sum of products over the contracted axis, and a reduction along one axis is the sum
  (or the fold of max) over that axis's coordinates.
-/
import proofs.«135105_j20547123544332_1_alg».proof.Proof.Gen.KernelIdeal.Skeleton
import proofs.«135105_j20547123544332_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.At

open Cert.KernelIdeal Cert.KernelIdeal.Gen Idealize.ShloMosaic Idealize.ShloMosaic.ValueIdx Cert.SageHead

/-! ## The three matrix products at an entry -/

theorem lhs_blk_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs_blk_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs_blk_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs_blk_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl
/-- Entry (r, j) of the product into a zero accumulator is the sum over the 128 contracted positions. -/
theorem matmul_blk (a : FVec Ideal S4000x128 .bf16) (b : FVec Ideal S128x256 .bf16) (r : Fin 4000) (j : Fin 256) :
    matmul dot_S4000x128_S128x256_S4000x256_1_0_0_1_n_n none a b (constant (F := Ideal) S4000x256 .f32 0x00000000#32) (ix2 r j)
      = ∑ k : Fin 128, a (ix2 r k) * b (ix2 k j) := by
  simp only [matmul]
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 r j) ((contrEquiv1 dot_S4000x128_S128x256_S4000x256_1_0_0_1_n_n 128 rfl rfl).symm k) = ix2 r k := funext fun a => Fin.ext (by
    match a with
    | ⟨0, _⟩ => exact lhs_blk_0 _ _
    | ⟨1, _⟩ => exact (lhs_blk_1 _ _).trans hk)
  have er : dot_S4000x128_S128x256_S4000x256_1_0_0_1_n_n.rhsIdx (ix2 r j) ((contrEquiv1 dot_S4000x128_S128x256_S4000x256_1_0_0_1_n_n 128 rfl rfl).symm k) = ix2 k j := funext fun a => Fin.ext (by
    match a with
    | ⟨0, _⟩ => exact (rhs_blk_0 _ _).trans hk
    | ⟨1, _⟩ => exact rhs_blk_1 _ _)
  rw [el, er]

theorem lhs_d1_0 (i : S1x256.Idx) (q : dot_S1x256_S256x256_S1x256_1_0_0_1_n_n.contr.Idx) :
    (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide), dif_pos (show (0 : Fin S1x256.rank) ∈ dot_S1x256_S256x256_S1x256_1_0_0_1_n_n.lhsNonContracting by decide)]
  rfl
theorem lhs_d1_1 (i : S1x256.Idx) (q : dot_S1x256_S256x256_S1x256_1_0_0_1_n_n.contr.Idx) :
    (dot_S1x256_S256x256_S1x256_1_0_0_1_n_n.lhsIdx i q 1).val = (q ⟨0, by decide⟩).val :=
  dot_S1x256_S256x256_S1x256_1_0_0_1_n_n.lhsIdx_val_of_single rfl i q
theorem rhs_d1_0 (i : S1x256.Idx) (q : dot_S1x256_S256x256_S1x256_1_0_0_1_n_n.contr.Idx) :
    (dot_S1x256_S256x256_S1x256_1_0_0_1_n_n.rhsIdx i q 0).val = (q ⟨0, by decide⟩).val :=
  dot_S1x256_S256x256_S1x256_1_0_0_1_n_n.rhsIdx_val_of_single rfl i q
theorem rhs_d1_1 (i : S1x256.Idx) (q : dot_S1x256_S256x256_S1x256_1_0_0_1_n_n.contr.Idx) :
    (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide), dif_pos (show (1 : Fin S256x256.rank) ∈ dot_S1x256_S256x256_S1x256_1_0_0_1_n_n.rhsNonContracting by decide)]
  rfl
/-- Entry (r, j) of the product into a zero accumulator is the sum over the 256 contracted positions. -/
theorem matmul_d1 (a : FVec Ideal S1x256 .bf16) (b : FVec Ideal S256x256 .bf16) (r : Fin 1) (j : Fin 256) :
    matmul dot_S1x256_S256x256_S1x256_1_0_0_1_n_n none a b (constant (F := Ideal) S1x256 .f32 0x00000000#32) (ix2 r j)
      = ∑ k : Fin 256, a (ix2 r k) * b (ix2 k j) := by
  simp only [matmul]
  rw [Ideal.matmul_constant_zero_apply, ← Equiv.sum_comp (contrEquiv1 dot_S1x256_S256x256_S1x256_1_0_0_1_n_n 256 rfl rfl).symm]
  refine Finset.sum_congr rfl fun k _ => ?_
  have hk := contrEquiv1_symm_val dot_S1x256_S256x256_S1x256_1_0_0_1_n_n 256 rfl rfl k
  have el : dot_S1x256_S256x256_S1x256_1_0_0_1_n_n.lhsIdx (ix2 r j) ((contrEquiv1 dot_S1x256_S256x256_S1x256_1_0_0_1_n_n 256 rfl rfl).symm k) = ix2 r k := funext fun a => Fin.ext (by
    match a with
    | ⟨0, _⟩ => exact lhs_d1_0 _ _
    | ⟨1, _⟩ => exact (lhs_d1_1 _ _).trans hk)
  have er : dot_S1x256_S256x256_S1x256_1_0_0_1_n_n.rhsIdx (ix2 r j) ((contrEquiv1 dot_S1x256_S256x256_S1x256_1_0_0_1_n_n 256 rfl rfl).symm k) = ix2 k j := funext fun a => Fin.ext (by
    match a with
    | ⟨0, _⟩ => exact (rhs_d1_0 _ _).trans hk
    | ⟨1, _⟩ => exact rhs_d1_1 _ _)
  rw [el, er]

theorem lhs_d2_0 (i : S1x10.Idx) (q : dot_S1x256_S256x10_S1x10_1_0_0_1_n_n.contr.Idx) :
    (dot_S1x256_S256x10_S1x10_1_0_0_1_n_n.lhsIdx i q 0).val = (i 0).val := by
  unfold DotDims.lhsIdx
  rw [dif_neg (show ¬(0 : Fin S1x256.rank) ∈ dot_S1x256_S256x10_S1x10_1_0_0_1_n_n.lhsBatch by decide), dif_pos (show (0 : Fin S1x256.rank) ∈ dot_S1x256_S256x10_S1x10_1_0_0_1_n_n.lhsNonContracting by decide)]
  rfl
theorem lhs_d2_1 (i : S1x10.Idx) (q : dot_S1x256_S256x10_S1x10_1_0_0_1_n_n.contr.Idx) :
    (dot_S1x256_S256x10_S1x10_1_0_0_1_n_n.lhsIdx i q 1).val = (q ⟨0, by decide⟩).val :=
  dot_S1x256_S256x10_S1x10_1_0_0_1_n_n.lhsIdx_val_of_single rfl i q
theorem rhs_d2_0 (i : S1x10.Idx) (q : dot_S1x256_S256x10_S1x10_1_0_0_1_n_n.contr.Idx) :
    (dot_S1x256_S256x10_S1x10_1_0_0_1_n_n.rhsIdx i q 0).val = (q ⟨0, by decide⟩).val :=
  dot_S1x256_S256x10_S1x10_1_0_0_1_n_n.rhsIdx_val_of_single rfl i q
theorem rhs_d2_1 (i : S1x10.Idx) (q : dot_S1x256_S256x10_S1x10_1_0_0_1_n_n.contr.Idx) :
    (dot_S1x256_S256x10_S1x10_1_0_0_1_n_n.rhsIdx i q 1).val = (i 1).val := by
  unfold DotDims.rhsIdx
  rw [dif_neg (show ¬(1 : Fin S256x10.rank) ∈ dot_S1x256_S256x10_S1x10_1_0_0_1_n_n.rhsBatch by decide), dif_pos (show (1 : Fin S256x10.rank) ∈ dot_S1x256_S256x10_S1x10_1_0_0_1_n_n.rhsNonContracting by decide)]
  rfl
/-- Entry (r, j) of the product into a zero accumulator is the sum over the 256 contracted positions. -/
theorem matmul_d2 (a : FVec Ideal S1x256 .bf16) (b : FVec Ideal S256x10 .bf16) (r : Fin 1) (j : Fin 10) :
    matmul dot_S1x256_S256x10_S1x10_1_0_0_1_n_n none a b (constant (F := Ideal) S1x10 .f32 0x00000000#32) (ix2 r j)
      = ∑ k : Fin 256, a (ix2 r k) * b (ix2 k j) := by
  simp only [matmul]
  rw [Ideal.matmul_constant_zero_apply, ← Equiv.sum_comp (contrEquiv1 dot_S1x256_S256x10_S1x10_1_0_0_1_n_n 256 rfl rfl).symm]
  refine Finset.sum_congr rfl fun k _ => ?_
  have hk := contrEquiv1_symm_val dot_S1x256_S256x10_S1x10_1_0_0_1_n_n 256 rfl rfl k
  have el : dot_S1x256_S256x10_S1x10_1_0_0_1_n_n.lhsIdx (ix2 r j) ((contrEquiv1 dot_S1x256_S256x10_S1x10_1_0_0_1_n_n 256 rfl rfl).symm k) = ix2 r k := funext fun a => Fin.ext (by
    match a with
    | ⟨0, _⟩ => exact lhs_d2_0 _ _
    | ⟨1, _⟩ => exact (lhs_d2_1 _ _).trans hk)
  have er : dot_S1x256_S256x10_S1x10_1_0_0_1_n_n.rhsIdx (ix2 r j) ((contrEquiv1 dot_S1x256_S256x10_S1x10_1_0_0_1_n_n 256 rfl rfl).symm k) = ix2 k j := funext fun a => Fin.ext (by
    match a with
    | ⟨0, _⟩ => exact (rhs_d2_0 _ _).trans hk
    | ⟨1, _⟩ => exact rhs_d2_1 _ _)
  rw [el, er]

/-! ## The reductions and the small layout steps -/

/-- Putting row k back into a column index gives the entry (k, j). -/
theorem lift_rows (h : S4000x256.Reduces [0] S256) (j : Fin 256) (k : Fin (S4000x256.size 0)) :
    h.lift (ix1 j) k = ix2 (⟨k.val, k.isLt⟩ : Fin 4000) j := by
  funext c; apply Fin.ext; fin_cases c <;> rfl

/-- The column sums of a [4000,256] block. -/
theorem colsum_apply (v : FVec Ideal S4000x256 .f32) (j : Fin 256) (hφ : FKind.Formats .f32)
    (hacc : (0x00000000#32 : BitVec 32) = FKind.add.neutral .f32 hφ) :
    multiReduction .add [0] S256 v 0x00000000#32 Gen.reduces_S4000x256_S256 hφ hacc (ix1 j) = ∑ y : Fin 4000, v (ix2 y j) := by
  refine (Ideal.multiReduction_add_single v 0x00000000#32 Gen.reduces_S4000x256_S256 hφ hacc (ix1 j)).trans ?_
  exact Finset.sum_congr rfl fun k _ => congrArg v (lift_rows _ j k)

/-- Putting logit o back into the one row index gives the entry (0, o). -/
theorem lift_logits (h : S1x10.Reduces [1] S1) (k : Fin (S1x10.size 1)) :
    h.lift (ix1 (0 : Fin 1)) k = ix2 (0 : Fin 1) (⟨k.val, k.isLt⟩ : Fin 10) := by
  funext c; apply Fin.ext; fin_cases c <;> rfl

/-- The sum of a row of ten. -/
theorem rowsum_apply (v : FVec Ideal S1x10 .f32) :
    multiReduction .add [1] S1 v 0x00000000#32 Gen.reduces_S1x10_S1 (.inl rfl) rfl (ix1 (0 : Fin 1)) = ∑ o : Fin 10, v (ix2 0 o) := by
  refine (Ideal.multiReduction_add_single v 0x00000000#32 Gen.reduces_S1x10_S1 (.inl rfl) rfl (ix1 0)).trans ?_
  exact Finset.sum_congr rfl fun k _ => congrArg v (lift_logits _ k)

/-- The maximum of a row of ten, from the value of the −∞ pattern. -/
theorem rowmax_apply (v : FVec Ideal S1x10 .f32) :
    multiReduction .maximumf [1] S1 v 0xFF800000#32 Gen.reduces_S1x10_S1 (.inl rfl) rfl (ix1 (0 : Fin 1)) = rowMax fun o => v (ix2 0 o) := by
  refine (Ideal.multiReduction_maximumf_single v 0xFF800000#32 Gen.reduces_S1x10_S1 (.inl rfl) rfl (ix1 0)).trans ?_
  have hf : (v ∘ Gen.reduces_S1x10_S1.lift (ix1 (0 : Fin 1))) = fun o : Fin 10 => v (ix2 0 o) :=
    funext fun k => congrArg v (lift_logits _ k)
  exact congrArg (fun f => Finset.fold max (Ideal.ofBits .f32 0xFF800000#32) f (Finset.univ : Finset (Fin 10))) hf

/-- A [1,1] value broadcast along the row. -/
theorem bcast_one (v : FVec Ideal S1x1 .f32) (o : Fin 10) :
    broadcastTo S1x10 v Gen.broadcasts_S1x1_S1x10 (ix2 0 o) = v (ix2 0 0) :=
  broadcastTo_apply v Gen.broadcasts_S1x1_S1x10 (ix2 0 o) (ix2 0 0) fun a => match a with
    | ⟨0, _⟩ => rfl
    | ⟨1, _⟩ => rfl

/-- The exponential and the logarithm of a vector, at an entry. -/
theorem exp_apply {s : Shape} (v : FVec Ideal s .f32) (i : s.Idx) : exp v i = Ideal.exp (v i) := rfl
theorem log_apply {s : Shape} (v : FVec Ideal s .f32) (i : s.Idx) : log v i = Ideal.log (v i) := rfl

/-- The named reciprocal is the rational 1/100000. -/
theorem inv_n : Named.named (F := Ideal) Cert.KernelIdeal.κ "inv_100000" (φ := .f32) 0x3727C5AC#32 = ((1 / 100000 : ℝ) : EReal) :=
  IdealRules.named_const.ideal_named_scalar _ _ _ _ rfl

/-! ## The three stored values -/

/-- The zero row. -/
theorem pay1_apply (j : Fin 256) : k0_pay1 (F := Ideal) (ix2 0 j) = 0 := by
  unfold k0_pay1
  simp only [shapeCast_self, broadcast_apply]
  exact Ideal.ofBits_zero_f32

/-- The accumulator update: the old entry plus the block's column sum of rectified features. -/
theorem pay2_apply (x0 x1 : FVec Ideal S4000x128 .f32) (w0 w1 : FVec Ideal S128x256 .f32) (bb acc : FVec Ideal S1x256 .f32) (j : Fin 256) :
    k0_pay2 (F := Ideal) x0 x1 w0 w1 bb acc (ix2 0 j)
      = acc (ix2 0 j) + ∑ y : Fin 4000, max ((∑ k : Fin 128, x0 (ix2 y k) * w0 (ix2 k j)) + (∑ k : Fin 128, x1 (ix2 y k) * w1 (ix2 k j)) + bb (ix2 0 j)) 0 := by
  unfold k0_pay2
  dsimp only
  simp only [shapeCast_self]
  rw [addf_apply]
  refine congrArg (acc (ix2 0 j) + ·) ?_
  refine (shapeCast_a_1a_apply _ Gen.shapeCasts_S256_S1x256 0 j).trans ?_
  refine (colsum_apply _ j _ _).trans ?_
  refine Finset.sum_congr rfl fun y _ => ?_
  simp only [maximumf_apply, addf_apply, broadcast_apply, matmul_blk, truncf_apply, broadcastTo_1b_ab_apply,
    Ideal.ofBits_def, Ideal.ofBits_zero_f32]

/-- The result: the log-softmax of the dense layers applied to the scaled accumulator. -/
theorem pay3_apply (p : FVec Ideal S1x256 .f32) (w1 : FVec Ideal S256x256 .f32) (b1r : FVec Ideal S1x256 .f32)
    (w2 : FVec Ideal S256x10 .f32) (b2r : FVec Ideal S1x10 .f32) (o : Fin 10) :
    k0_pay3 (F := Ideal) p w1 b1r w2 b2r (ix2 0 o)
      = logSoftmax (dense2 (dense1 (fun k => p (ix2 0 k) * ((1 / 100000 : ℝ) : EReal)) (fun k j => w1 (ix2 k j)) (fun j => b1r (ix2 0 j)))
          (fun k o => w2 (ix2 k o)) (fun o => b2r (ix2 0 o))) o := by
  unfold k0_pay3
  dsimp only
  simp only [shapeCast_self]
  simp only [subf_apply, addf_apply, bcast_one, shapeCast_a_1a_apply, rowmax_apply, rowsum_apply, log_apply, exp_apply,
    matmul_d2, matmul_d1, truncf_apply, maximumf_apply, mulf_apply, broadcast_apply, inv_n, Ideal.ofBits_def,
    Ideal.ofBits_zero_f32]
  rw [rowmax_apply, rowsum_apply]
  simp only [subf_apply, addf_apply, bcast_one, shapeCast_a_1a_apply, exp_apply,
    matmul_d2, matmul_d1, truncf_apply, maximumf_apply, mulf_apply, broadcast_apply, Ideal.ofBits_def,
    Ideal.ofBits_zero_f32]
  rw [rowmax_apply]
  simp only [addf_apply, matmul_d2, matmul_d1, truncf_apply, maximumf_apply, mulf_apply, broadcast_apply]
  rfl

end Cert.KernelIdeal.At

end
-- ==== Proof.Blocks.lean ====
/-
  The windows' blocks read off the arrays the region finds.

  Window 0 (the neighbour means) and window 1 (the node features) are cut in 25 blocks of 4000 rows: row y of block t
  is row 4000·t + y of the array.  The seven other input windows hold their whole array at every point.
-/
import proofs.«135105_j20547123544332_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F] [Named F]
variable (m : (ℓ : Loc nD τ sig) → Buf (Elt F) ℓ)

/-- The block index maps, decided over the 25 grid points: the two row-blocked windows are at block (t, 0), every other
    window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row y of block t of the neighbour means. -/
theorem aggBlk_apply (c : Dev nD) (t : Fin cfg0.N) (y : Fin 4000) (k : Fin 128) (h : 4000 * t.val + y.val < 100000) :
    (iblk m c 0 t : Vec F S4000x128 .f32) (ix2 y k) = (V m c main_v21 : Vec F S100000x128 .f32) (ix2 (⟨4000 * t.val + y.val, h⟩ : Fin 100000) k) := by
  unfold iblk
  rw [View.read_apply]
  show V m c main_v21 (((cfg0.win 0).blk t).view.emb (ix2 y k)) = V m c main_v21 (ix2 (⟨4000 * t.val + y.val, h⟩ : Fin 100000) k)
  refine congrArg _ (funext fun a => Fin.ext ?_)
  match a with
  | ⟨0, _⟩ =>
    show win0_0.index t 0 * 4000 + 1 * y.val = 4000 * t.val + y.val
    rw [(idx_facts t).1]; omega
  | ⟨1, _⟩ =>
    show win0_0.index t 1 * 128 + 1 * k.val = k.val
    rw [(idx_facts t).2.1]; omega

/-- Row y of block t of the node features. -/
theorem xBlk_apply (c : Dev nD) (t : Fin cfg0.N) (y : Fin 4000) (k : Fin 128) (h : 4000 * t.val + y.val < 100000) :
    (iblk m c 1 t : Vec F S4000x128 .f32) (ix2 y k) = (V m c main_arg0 : Vec F S100000x128 .f32) (ix2 (⟨4000 * t.val + y.val, h⟩ : Fin 100000) k) := by
  unfold iblk
  rw [View.read_apply]
  show V m c main_arg0 (((cfg0.win 1).blk t).view.emb (ix2 y k)) = V m c main_arg0 (ix2 (⟨4000 * t.val + y.val, h⟩ : Fin 100000) k)
  refine congrArg _ (funext fun a => Fin.ext ?_)
  match a with
  | ⟨0, _⟩ =>
    show win0_1.index t 0 * 4000 + 1 * y.val = 4000 * t.val + y.val
    rw [(idx_facts t).2.2.1]; omega
  | ⟨1, _⟩ =>
    show win0_1.index t 1 * 128 + 1 * k.val = k.val
    rw [(idx_facts t).2.2.2.1]; omega

/-- The block of the left weight matrix is the whole array at every point. -/
theorem blk2_eq (c : Dev nD) (t : Fin cfg0.N) :
    (iblk m c 2 t : Vec F S128x256 .f32) = (V m c main_v24 : Vec F S128x256 .f32) := by
  funext j
  unfold iblk
  rw [View.read_apply]
  show V m c main_v24 (((cfg0.win 2).blk t).view.emb j) = V m c main_v24 j
  refine congrArg _ (funext fun a => Fin.ext ?_)
  match a with
  | ⟨0, _⟩ =>
    show win0_2.index t 0 * 128 + 1 * (j 0).val = (j 0).val
    rw [(idx_facts t).2.2.2.2.1]; omega
  | ⟨1, _⟩ =>
    show win0_2.index t 1 * 256 + 1 * (j 1).val = (j 1).val
    rw [(idx_facts t).2.2.2.2.2.1]; omega

/-- The block of the right weight matrix is the whole array at every point. -/
theorem blk3_eq (c : Dev nD) (t : Fin cfg0.N) :
    (iblk m c 3 t : Vec F S128x256 .f32) = (V m c main_v27 : Vec F S128x256 .f32) := by
  funext j
  unfold iblk
  rw [View.read_apply]
  show V m c main_v27 (((cfg0.win 3).blk t).view.emb j) = V m c main_v27 j
  refine congrArg _ (funext fun a => Fin.ext ?_)
  match a with
  | ⟨0, _⟩ =>
    show win0_3.index t 0 * 128 + 1 * (j 0).val = (j 0).val
    rw [(idx_facts t).2.2.2.2.2.2.1]; omega
  | ⟨1, _⟩ =>
    show win0_3.index t 1 * 256 + 1 * (j 1).val = (j 1).val
    rw [(idx_facts t).2.2.2.2.2.2.2.1]; omega

/-- The block of the bias row is the whole array at every point. -/
theorem blk4_eq (c : Dev nD) (t : Fin cfg0.N) :
    (iblk m c 4 t : Vec F S1x256 .f32) = (V m c main_v30 : Vec F S1x256 .f32) := by
  funext j
  unfold iblk
  rw [View.read_apply]
  show V m c main_v30 (((cfg0.win 4).blk t).view.emb j) = V m c main_v30 j
  refine congrArg _ (funext fun a => Fin.ext ?_)
  match a with
  | ⟨0, _⟩ =>
    show win0_4.index t 0 * 1 + 1 * (j 0).val = (j 0).val
    rw [(idx_facts t).2.2.2.2.2.2.2.2.1]; omega
  | ⟨1, _⟩ =>
    show win0_4.index t 1 * 256 + 1 * (j 1).val = (j 1).val
    rw [(idx_facts t).2.2.2.2.2.2.2.2.2.1]; omega

/-- The block of the first dense matrix is the whole array at every point. -/
theorem blk5_eq (c : Dev nD) (t : Fin cfg0.N) :
    (iblk m c 5 t : Vec F S256x256 .f32) = (V m c main_v31 : Vec F S256x256 .f32) := by
  funext j
  unfold iblk
  rw [View.read_apply]
  show V m c main_v31 (((cfg0.win 5).blk t).view.emb j) = V m c main_v31 j
  refine congrArg _ (funext fun a => Fin.ext ?_)
  match a with
  | ⟨0, _⟩ =>
    show win0_5.index t 0 * 256 + 1 * (j 0).val = (j 0).val
    rw [(idx_facts t).2.2.2.2.2.2.2.2.2.2.1]; omega
  | ⟨1, _⟩ =>
    show win0_5.index t 1 * 256 + 1 * (j 1).val = (j 1).val
    rw [(idx_facts t).2.2.2.2.2.2.2.2.2.2.2.1]; omega

/-- The block of the first dense bias row is the whole array at every point. -/
theorem blk6_eq (c : Dev nD) (t : Fin cfg0.N) :
    (iblk m c 6 t : Vec F S1x256 .f32) = (V m c main_v32 : Vec F S1x256 .f32) := by
  funext j
  unfold iblk
  rw [View.read_apply]
  show V m c main_v32 (((cfg0.win 6).blk t).view.emb j) = V m c main_v32 j
  refine congrArg _ (funext fun a => Fin.ext ?_)
  match a with
  | ⟨0, _⟩ =>
    show win0_6.index t 0 * 1 + 1 * (j 0).val = (j 0).val
    rw [(idx_facts t).2.2.2.2.2.2.2.2.2.2.2.2.1]; omega
  | ⟨1, _⟩ =>
    show win0_6.index t 1 * 256 + 1 * (j 1).val = (j 1).val
    rw [(idx_facts t).2.2.2.2.2.2.2.2.2.2.2.2.2.1]; omega

/-- The block of the second dense matrix is the whole array at every point. -/
theorem blk7_eq (c : Dev nD) (t : Fin cfg0.N) :
    (iblk m c 7 t : Vec F S256x10 .f32) = (V m c main_v33 : Vec F S256x10 .f32) := by
  funext j
  unfold iblk
  rw [View.read_apply]
  show V m c main_v33 (((cfg0.win 7).blk t).view.emb j) = V m c main_v33 j
  refine congrArg _ (funext fun a => Fin.ext ?_)
  match a with
  | ⟨0, _⟩ =>
    show win0_7.index t 0 * 256 + 1 * (j 0).val = (j 0).val
    rw [(idx_facts t).2.2.2.2.2.2.2.2.2.2.2.2.2.2.1]; omega
  | ⟨1, _⟩ =>
    show win0_7.index t 1 * 10 + 1 * (j 1).val = (j 1).val
    rw [(idx_facts t).2.2.2.2.2.2.2.2.2.2.2.2.2.2.2.1]; omega

/-- The block of the second dense bias row is the whole array at every point. -/
theorem blk8_eq (c : Dev nD) (t : Fin cfg0.N) :
    (iblk m c 8 t : Vec F S1x10 .f32) = (V m c main_v34 : Vec F S1x10 .f32) := by
  funext j
  unfold iblk
  rw [View.read_apply]
  show V m c main_v34 (((cfg0.win 8).blk t).view.emb j) = V m c main_v34 j
  refine congrArg _ (funext fun a => Fin.ext ?_)
  match a with
  | ⟨0, _⟩ =>
    show win0_8.index t 0 * 1 + 1 * (j 0).val = (j 0).val
    rw [(idx_facts t).2.2.2.2.2.2.2.2.2.2.2.2.2.2.2.2.1]; omega
  | ⟨1, _⟩ =>
    show win0_8.index t 1 * 10 + 1 * (j 1).val = (j 1).val
    rw [(idx_facts t).2.2.2.2.2.2.2.2.2.2.2.2.2.2.2.2.2.1]; omega

end Cert.KernelIdeal.Blocks

end
-- ==== Proof.Accum.lean ====
/-
  The accumulator over the grid, and the result the last point writes.

  After point n the carried [1,256] accumulator holds, at column j, the sum over the blocks 0 … n of the block's
  column sum of hidden features: by induction on the point, the first point starting from the zero row it has just
  stored.  After the last point that is the sum over all 100000 rows, and the result buffer holds the log-softmax
  head applied to it.
-/
import proofs.«135105_j20547123544332_1_alg».proof.Proof.Stores
import proofs.«135105_j20547123544332_1_alg».proof.Proof.At
import proofs.«135105_j20547123544332_1_alg».proof.Proof.Blocks

set_option maxRecDepth 16384

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.SageHead Cert.KernelIdeal.Stores Cert.KernelIdeal.At Cert.KernelIdeal.Blocks

variable (m : (ℓ : Loc nD τ sig) → Buf (Elt Ideal) ℓ)

/-! ## The arrays the region finds, at their literal types -/

abbrev aggA (c : Dev nD) : FVec Ideal S100000x128 .f32 := V m c main_v21
abbrev xA (c : Dev nD) : FVec Ideal S100000x128 .f32 := V m c main_arg0
abbrev wlA (c : Dev nD) : FVec Ideal S128x256 .f32 := V m c main_v24
abbrev wrA (c : Dev nD) : FVec Ideal S128x256 .f32 := V m c main_v27
abbrev biasA (c : Dev nD) : FVec Ideal S1x256 .f32 := V m c main_v30
abbrev w1A (c : Dev nD) : FVec Ideal S256x256 .f32 := V m c main_v31
abbrev b1A (c : Dev nD) : FVec Ideal S1x256 .f32 := V m c main_v32
abbrev w2A (c : Dev nD) : FVec Ideal S256x10 .f32 := V m c main_v33
abbrev b2A (c : Dev nD) : FVec Ideal S1x10 .f32 := V m c main_v34

/-- The hidden features of those arrays. -/
def hid (c : Dev nD) : Fin 100000 → Fin 256 → EReal :=
  hidden (fun r k => aggA m c (ix2 r k)) (fun r k => xA m c (ix2 r k)) (fun k j => wlA m c (ix2 k j))
    (fun k j => wrA m c (ix2 k j)) (fun j => biasA m c (ix2 0 j))

/-- Block n's column sum of hidden features (zero past the grid). -/
def blockSum (c : Dev nD) (n : ℕ) (j : Fin 256) : EReal :=
  if h : n < 25 then ∑ y : Fin 4000, hid m c ⟨4000 * n + y.val, by have := y.isLt; omega⟩ j else 0

/-- One point's update of the accumulator, at column j. -/
theorem step_eq (c : Dev nD) (t : Fin cfg0.N) (acc : FVec Ideal S1x256 .f32) (j : Fin 256) :
    k0_pay2 (F := Ideal) (iblk m c 0 t) (iblk m c 1 t) (iblk m c 2 t) (iblk m c 3 t) (iblk m c 4 t) acc (ix2 0 j)
      = acc (ix2 0 j) + blockSum m c t.val j := by
  have hN : t.val < 25 := lt_of_lt_of_eq t.isLt (show cfg0.N = 25 from N_0)
  refine (pay2_apply (iblk m c 0 t) (iblk m c 1 t) (iblk m c 2 t) (iblk m c 3 t) (iblk m c 4 t) acc j).trans ?_
  refine congrArg (acc (ix2 0 j) + ·) ?_
  unfold blockSum
  rw [dif_pos hN]
  refine Finset.sum_congr rfl fun y _ => ?_
  have hy := y.isLt
  have e0 : ∀ k : Fin 128, (iblk m c 0 t : Vec Ideal S4000x128 .f32) (ix2 y k)
      = aggA m c (ix2 (⟨4000 * t.val + y.val, by omega⟩ : Fin 100000) k) := fun k => aggBlk_apply m c t y k _
  have e1 : ∀ k : Fin 128, (iblk m c 1 t : Vec Ideal S4000x128 .f32) (ix2 y k)
      = xA m c (ix2 (⟨4000 * t.val + y.val, by omega⟩ : Fin 100000) k) := fun k => xBlk_apply m c t y k _
  have e2 : (iblk m c 2 t : Vec Ideal S128x256 .f32) = wlA m c := blk2_eq m c t
  have e3 : (iblk m c 3 t : Vec Ideal S128x256 .f32) = wrA m c := blk3_eq m c t
  have e4 : (iblk m c 4 t : Vec Ideal S1x256 .f32) = biasA m c := blk4_eq m c t
  rw [e2, e3, e4]
  simp only [e0, e1]
  rfl

/-- The stores of the three cases, at the point's own buffers and blocks. -/
theorem first_at (c : Dev nD) (t : Fin cfg0.N) (h0 : cond0_0 (grid0.coords t)) (h1 : ¬cond0_1 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t)
      = k0_pay2 (iblk m c 0 t) (iblk m c 1 t) (iblk m c 2 t) (iblk m c 3 t) (iblk m c 4 t) (k0_pay1 (F := Ideal)) :=
  scratch_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t)

theorem mid_at (c : Dev nD) (t : Fin cfg0.N) (h0 : ¬cond0_0 (grid0.coords t)) (h1 : ¬cond0_1 (grid0.coords t))
    (xs : Vec Ideal S1x256 .f32) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) xs
      = k0_pay2 (iblk m c 0 t) (iblk m c 1 t) (iblk m c 2 t) (iblk m c 3 t) (iblk m c 4 t) xs :=
  scratch_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) xs

theorem last_at (c : Dev nD) (t : Fin cfg0.N) (h0 : ¬cond0_0 (grid0.coords t)) (h1 : cond0_1 (grid0.coords t))
    (xs : Vec Ideal S1x256 .f32) :
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) xs
      = k0_pay2 (iblk m c 0 t) (iblk m c 1 t) (iblk m c 2 t) (iblk m c 3 t) (iblk m c 4 t) xs :=
  scratch_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) xs

theorem result_at (c : Dev nD) (t : Fin cfg0.N) (h0 : ¬cond0_0 (grid0.coords t)) (h1 : cond0_1 (grid0.coords t))
    (xs : Vec Ideal S1x256 .f32) :
    out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) xs
      = k0_pay3 (k0_pay2 (iblk m c 0 t) (iblk m c 1 t) (iblk m c 2 t) (iblk m c 3 t) (iblk m c 4 t) xs)
          (iblk m c 5 t) (iblk m c 6 t) (iblk m c 7 t) (iblk m c 8 t) :=
  out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) xs

/-- After point n the accumulator's column j is the sum of the column sums of blocks 0 … n. -/
theorem acc_eq (c : Dev nD) : ∀ (n : ℕ) (hn : n < cfg0.N) (j : Fin 256),
    (outsAt0 m c n hn).2 (ix2 0 j) = ∑ s ∈ Finset.range (n + 1), blockSum m c s j
  | 0, hn, j => by
    rw [outsAt0_A m c ⟨0, hn⟩ rfl (by dsimp only; omega)]
    dsimp only
    rw [first_at m c ⟨0, hn⟩, step_eq m c ⟨0, hn⟩, pay1_apply, zero_add, Finset.sum_range_one]
  | n + 1, hn, j => by
    have hN : n + 1 < 25 := lt_of_lt_of_eq hn (show cfg0.N = 25 from N_0)
    have h0 : ¬(⟨n + 1, hn⟩ : Fin cfg0.N).val % 25 = 0 := by dsimp only; omega
    by_cases h1 : (⟨n + 1, hn⟩ : Fin cfg0.N).val % 25 = 24
    · rw [outsAt0_C m c ⟨n + 1, hn⟩ h0 h1]
      dsimp only
      rw [last_at m c ⟨n + 1, hn⟩, step_eq m c ⟨n + 1, hn⟩, Finset.sum_range_succ _ (n + 1)]
      exact congrArg (· + blockSum m c (n + 1) j) (acc_eq c n (Nat.lt_of_succ_lt hn) j)
    · rw [outsAt0_B m c ⟨n + 1, hn⟩ h0 h1]
      dsimp only
      rw [mid_at m c ⟨n + 1, hn⟩, step_eq m c ⟨n + 1, hn⟩, Finset.sum_range_succ _ (n + 1)]
      exact congrArg (· + blockSum m c (n + 1) j) (acc_eq c n (Nat.lt_of_succ_lt hn) j)

/-- The sum of the 25 block sums is the sum over all rows. -/
theorem blocks_total (c : Dev nD) (j : Fin 256) :
    ∑ s ∈ Finset.range 25, blockSum m c s j = ∑ r : Fin 100000, hid m c r j := by
  rw [Finset.sum_range, sum_rows]
  refine Finset.sum_congr rfl fun t _ => ?_
  unfold blockSum
  rw [dif_pos t.isLt]
  rfl

/-- What the kernel leaves in the result buffer at the last point: the logits of the arrays the region finds. -/
theorem result_eq (c : Dev nD) (h : 24 < cfg0.N) (o : Fin 10) :
    (outsAt0 m c 24 h).1 (ix2 0 o)
      = logits (fun r k => aggA m c (ix2 r k)) (fun r k => xA m c (ix2 r k)) (fun k j => wlA m c (ix2 k j))
          (fun k j => wrA m c (ix2 k j)) (fun j => biasA m c (ix2 0 j)) (fun k j => w1A m c (ix2 k j))
          (fun j => b1A m c (ix2 0 j)) (fun k o => w2A m c (ix2 k o)) (fun o => b2A m c (ix2 0 o)) o := by
  rw [outsAt0_C m c ⟨24, h⟩ (by dsimp only; omega) (by dsimp only)]
  dsimp only
  rw [result_at m c ⟨24, h⟩]
  refine (pay3_apply _ (iblk m c 5 ⟨24, h⟩) (iblk m c 6 ⟨24, h⟩) (iblk m c 7 ⟨24, h⟩) (iblk m c 8 ⟨24, h⟩) o).trans ?_
  have e5 : (iblk m c 5 ⟨24, h⟩ : Vec Ideal S256x256 .f32) = w1A m c := blk5_eq m c _
  have e6 : (iblk m c 6 ⟨24, h⟩ : Vec Ideal S1x256 .f32) = b1A m c := blk6_eq m c _
  have e7 : (iblk m c 7 ⟨24, h⟩ : Vec Ideal S256x10 .f32) = w2A m c := blk7_eq m c _
  have e8 : (iblk m c 8 ⟨24, h⟩ : Vec Ideal S1x10 .f32) = b2A m c := blk8_eq m c _
  rw [e5, e6, e7, e8]
  unfold logits
  have ep : (fun k : Fin 256 => k0_pay2 (F := Ideal) (iblk m c 0 ⟨24, h⟩) (iblk m c 1 ⟨24, h⟩) (iblk m c 2 ⟨24, h⟩) (iblk m c 3 ⟨24, h⟩)
        (iblk m c 4 ⟨24, h⟩) (outsAt0 m c (24 - 1) (Nat.lt_of_le_of_lt (Nat.sub_le _ _) h)).2 (ix2 0 k) * ((1 / 100000 : ℝ) : EReal))
      = meanPool (hid m c) := by
    funext k
    rw [step_eq m c ⟨24, h⟩, acc_eq m c 23 (by omega) k]
    show (∑ s ∈ Finset.range 24, blockSum m c s k + blockSum m c 24 k) * _ = _
    rw [← Finset.sum_range_succ _ 24, blocks_total]
    rfl
  rw [ep]
  rfl

end Cert.KernelIdeal.Accum

end
-- ==== Proof.Arrays.lean ====
/-
  The arrays the region finds are the reference's own intermediate values of the same arguments.

  Before the kernel is launched the program computes, with host operations, the mean of every node's neighbours
  (a gather of the source rows, a scatter-add onto the targets, a division by the clipped degree), the transposes of
  the last layer's two weight matrices and of the two dense matrices, and the biases as rows.  The reference computes
  the very same values by the very same operations, so each array is the reference's stage of the same name-free
  term: the two are equal by unfolding the definitions, without reading any of them at an index.
-/
import proofs.«135105_j20547123544332_1_alg».proof.Proof.Gen.KernelIdeal.Frame
import proofs.«135105_j20547123544332_1_alg».proof.Proof.Gen.ReferenceIdeal.Read
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem Idealize.ShloMosaic.StableHlo

variable {F : FTy → Type} [FloatOps F] [Named F]
variable (m : (ℓ : Loc nD τ sig) → Buf (Elt F) ℓ)

set_option maxHeartbeats 4000000 in
/-- The neighbour means. -/
theorem agg_eq (c : Dev nD) :
    (V m c main_v21 : (⟨S100000x128, .f32⟩ : BufTy).Contents (Elt F)) = Cert.ReferenceIdeal.Read.val_main_v21 (F := F) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results
  (try simp only [TRef.ofBuf, TRef.toBuf, cast_eq])
  rfl

set_option maxHeartbeats 4000000 in
/-- The last layer's left weights, transposed. -/
theorem wl_eq (c : Dev nD) :
    (V m c main_v24 : (⟨S128x256, .f32⟩ : BufTy).Contents (Elt F)) = Cert.ReferenceIdeal.Read.val_main_v54 (F := F) (m ((c : Thread nD τ).loc main_arg2)) := by
  dsimp only [V]
  simp only [hostOps0, hostOps0_1, hostOps0_2, List.flatten_cons, List.flatten_nil, List.append_nil, List.cons_append, List.nil_append]
  after_results
  (try simp only [TRef.ofBuf, TRef.toBuf, cast_eq])
  rfl

set_option maxHeartbeats 4000000 in
/-- The last layer's right weights, transposed. -/
theorem wr_eq (c : Dev nD) :
    (V m c main_v27 : (⟨S128x256, .f32⟩ : BufTy).Contents (Elt F)) = Cert.ReferenceIdeal.Read.val_main_v58 (F := F) (m ((c : Thread nD τ).loc main_arg3)) := by
  dsimp only [V]
  simp only [hostOps0, hostOps0_1, hostOps0_2, List.flatten_cons, List.flatten_nil, List.append_nil, List.cons_append, List.nil_append]
  after_results
  (try simp only [TRef.ofBuf, TRef.toBuf, cast_eq])
  rfl

set_option maxHeartbeats 4000000 in
/-- The last layer's bias, as a row. -/
theorem bias_eq (c : Dev nD) :
    (V m c main_v30 : (⟨S1x256, .f32⟩ : BufTy).Contents (Elt F)) = shapeCast S1x256 (Cert.ReferenceIdeal.Read.val_main_v62 (F := F) (m ((c : Thread nD τ).loc main_arg4))) Gen.shapeCasts_S256_S1x256 := by
  dsimp only [V]
  simp only [hostOps0, hostOps0_1, hostOps0_2, List.flatten_cons, List.flatten_nil, List.append_nil, List.cons_append, List.nil_append]
  after_results
  (try simp only [TRef.ofBuf, TRef.toBuf, cast_eq])
  rfl

set_option maxHeartbeats 4000000 in
/-- The first dense matrix, transposed. -/
theorem w1_eq (c : Dev nD) :
    (V m c main_v31 : (⟨S256x256, .f32⟩ : BufTy).Contents (Elt F)) = Cert.ReferenceIdeal.Read.val_main_v71 (F := F) (m ((c : Thread nD τ).loc main_arg5)) := by
  dsimp only [V]
  simp only [hostOps0, hostOps0_1, hostOps0_2, List.flatten_cons, List.flatten_nil, List.append_nil, List.cons_append, List.nil_append]
  after_results
  (try simp only [TRef.ofBuf, TRef.toBuf, cast_eq])
  rfl

set_option maxHeartbeats 4000000 in
/-- The first dense bias, as a row. -/
theorem b1_eq (c : Dev nD) :
    (V m c main_v32 : (⟨S1x256, .f32⟩ : BufTy).Contents (Elt F)) = shapeCast S1x256 (m ((c : Thread nD τ).loc main_arg6)) Gen.shapeCasts_S256_S1x256 := by
  dsimp only [V]
  simp only [hostOps0, hostOps0_1, hostOps0_2, List.flatten_cons, List.flatten_nil, List.append_nil, List.cons_append, List.nil_append]
  after_results
  (try simp only [TRef.ofBuf, TRef.toBuf, cast_eq])
  rfl

set_option maxHeartbeats 4000000 in
/-- The second dense matrix, transposed. -/
theorem w2_eq (c : Dev nD) :
    (V m c main_v33 : (⟨S256x10, .f32⟩ : BufTy).Contents (Elt F)) = Cert.ReferenceIdeal.Read.val_main_v76 (F := F) (m ((c : Thread nD τ).loc main_arg7)) := by
  dsimp only [V]
  simp only [hostOps0, hostOps0_1, hostOps0_2, List.flatten_cons, List.flatten_nil, List.append_nil, List.cons_append, List.nil_append]
  after_results
  (try simp only [TRef.ofBuf, TRef.toBuf, cast_eq])
  rfl

set_option maxHeartbeats 4000000 in
/-- The second dense bias, as a row. -/
theorem b2_eq (c : Dev nD) :
    (V m c main_v34 : (⟨S1x10, .f32⟩ : BufTy).Contents (Elt F)) = shapeCast S1x10 (m ((c : Thread nD τ).loc main_arg8)) Gen.shapeCasts_S10_S1x10 := by
  dsimp only [V]
  simp only [hostOps0, hostOps0_1, hostOps0_2, List.flatten_cons, List.flatten_nil, List.append_nil, List.cons_append, List.nil_append]
  after_results
  (try simp only [TRef.ofBuf, TRef.toBuf, cast_eq])
  rfl

end Cert.KernelIdeal.Arrays

end
-- ==== Proof.RefAt.lean ====
/-
  The reference program read at an index, stage by stage, over the extended reals.

  Each stage of the reference is read at the entry that the next stage needs: the hidden feature (r, j) as the rectified
  sum of two products and the bias; the pooled entry as the sum over the 100000 rows divided by 100000, which over the
  extended reals is the product with the rational 1/100000; the two dense layers as sums of products; the log-softmax
  as the shifted logits minus the logarithm of the sum of their exponentials, the maximum taken once more against the
  value it started from.
-/
import proofs.«135105_j20547123544332_1_alg».proof.Proof.Gen.ReferenceIdeal.Read
import proofs.«135105_j20547123544332_1_alg».proof.Proof.Spec
import Idealize.ShloMosaic.PureOps.Reduce

noncomputable section

open scoped BigOperators

namespace Cert.ReferenceIdeal.RefAt

open Cert.ReferenceIdeal Cert.ReferenceIdeal.Gen Cert.ReferenceIdeal.Read Idealize.ShloMosaic Idealize.ShloMosaic.ValueIdx Cert.SageHead

variable (x0 : (⟨S100000x128, .f32⟩ : BufTy).Contents (Elt Ideal)) (x1 : (⟨S2x1600000, .i32⟩ : BufTy).Contents (Elt Ideal))
  (x2 x3 : (⟨S3x256x128, .f32⟩ : BufTy).Contents (Elt Ideal)) (x4 : (⟨S3x256, .f32⟩ : BufTy).Contents (Elt Ideal))
  (x5 : (⟨S256x256, .f32⟩ : BufTy).Contents (Elt Ideal)) (x6 : (⟨S256, .f32⟩ : BufTy).Contents (Elt Ideal))
  (x7 : (⟨S10x256, .f32⟩ : BufTy).Contents (Elt Ideal)) (x8 : (⟨S10, .f32⟩ : BufTy).Contents (Elt Ideal))

/-! ## The composed index maps, by coordinates -/

section Idx
variable (r : Fin 100000) (j k : Fin 256) (q : Fin 128) (o : Fin 10) (u : Fin 1)
theorem l55 : lidx_main_v55 (ix2 r j) q = ix2 r q :=
  funext fun a => Fin.ext (by match a with | ⟨0, _⟩ => rfl | ⟨1, _⟩ => rfl)
theorem r55 : ridx_main_v55 (ix2 r j) q = ix2 q j :=
  funext fun a => Fin.ext (by match a with | ⟨0, _⟩ => rfl | ⟨1, _⟩ => rfl)
theorem l59 : lidx_main_v59 (ix2 r j) q = ix2 r q :=
  funext fun a => Fin.ext (by match a with | ⟨0, _⟩ => rfl | ⟨1, _⟩ => rfl)
theorem r59 : ridx_main_v59 (ix2 r j) q = ix2 q j :=
  funext fun a => Fin.ext (by match a with | ⟨0, _⟩ => rfl | ⟨1, _⟩ => rfl)
theorem i6364 : idx_main_v63 (idx_main_v64 (ix2 r j)) = ix1 j :=
  funext fun a => Fin.ext (by match a with | ⟨0, _⟩ => rfl)
theorem i6768 : idx_main_v67 (idx_main_v68 (ix2 u j)) r = ix2 r j :=
  funext fun a => Fin.ext (by match a with | ⟨0, _⟩ => rfl | ⟨1, _⟩ => rfl)
theorem l72 : lidx_main_v72 (ix2 u j) k = ix2 u k :=
  funext fun a => Fin.ext (by match a with | ⟨0, _⟩ => rfl | ⟨1, _⟩ => rfl)
theorem r72 : ridx_main_v72 (ix2 u j) k = ix2 k j :=
  funext fun a => Fin.ext (by match a with | ⟨0, _⟩ => rfl | ⟨1, _⟩ => rfl)
theorem i73 : idx_main_v73 (ix2 u j) = ix1 j :=
  funext fun a => Fin.ext (by match a with | ⟨0, _⟩ => rfl)
theorem l77 : lidx_main_v77 (ix2 u o) k = ix2 u k :=
  funext fun a => Fin.ext (by match a with | ⟨0, _⟩ => rfl | ⟨1, _⟩ => rfl)
theorem r77 : ridx_main_v77 (ix2 u o) k = ix2 k o :=
  funext fun a => Fin.ext (by match a with | ⟨0, _⟩ => rfl | ⟨1, _⟩ => rfl)
theorem i78 : idx_main_v78 (ix2 u o) = ix1 o :=
  funext fun a => Fin.ext (by match a with | ⟨0, _⟩ => rfl)
end Idx

/-! ## The stages -/

/-- The hidden feature (r, j). -/
theorem hidden_at (r : Fin 100000) (j : Fin 256) :
    val_main_v66 (F := Ideal) x0 x1 x2 x3 x4 (ix2 r j)
      = hidden (fun r k => val_main_v21 (F := Ideal) x0 x1 (ix2 r k)) (fun r k => x0 (ix2 r k))
          (fun k j => val_main_v54 (F := Ideal) x2 (ix2 k j)) (fun k j => val_main_v58 (F := Ideal) x3 (ix2 k j))
          (fun j => val_main_v62 (F := Ideal) x4 (ix1 j)) r j := by
  rw [val_main_v66_apply, val_main_v65_apply, val_main_v60_apply, val_main_v55_apply, val_main_v59_apply,
    val_main_v64_apply, val_main_v63_apply, val_main_call3_v0_apply, val_main_call3_cst_apply]
  simp only [l55, r55, l59, r59, i6364, Ideal.addf_def, Ideal.maximumf_def, Ideal.ofBits_def, Ideal.ofBits_zero_f32]
  rfl

/-- The pooled entry j: the sum over the rows times 1/100000. -/
theorem pooled_at (j : Fin 256) :
    val_main_v70 (F := Ideal) x0 x1 x2 x3 x4 (ix2 0 j)
      = meanPool (fun r j => val_main_v66 (F := Ideal) x0 x1 x2 x3 x4 (ix2 r j)) j := by
  rw [val_main_v70_apply, val_main_v68_apply, val_main_v67_apply, val_main_v69_apply, val_main_cst_5_apply,
    val_main_cst_4_apply]
  simp only [i6768, Ideal.hostDivf_def, Ideal.ofBits_def, Ideal.ofBits_zero_f32, zero_add, ofBits_100000,
    Ideal.div_coe (by norm_num : (100000 : ℝ) ≠ 0)]
  rfl

/-- The first dense layer at j. -/
theorem dense1_at (j : Fin 256) :
    val_main_v75 (F := Ideal) x0 x1 x2 x3 x4 x5 x6 (ix2 0 j)
      = dense1 (fun k => val_main_v70 (F := Ideal) x0 x1 x2 x3 x4 (ix2 0 k)) (fun k j => val_main_v71 (F := Ideal) x5 (ix2 k j))
          (fun j => x6 (ix1 j)) j := by
  rw [val_main_v75_apply, val_main_v74_apply, val_main_v72_apply, val_main_v73_apply, val_main_call4_v0_apply,
    val_main_call4_cst_apply]
  simp only [l72, r72, i73, Ideal.addf_def, Ideal.maximumf_def, Ideal.ofBits_def, Ideal.ofBits_zero_f32]
  rfl

/-- The second dense layer at o. -/
theorem dense2_at (o : Fin 10) :
    val_main_v79 (F := Ideal) x0 x1 x2 x3 x4 x5 x6 x7 x8 (ix2 0 o)
      = dense2 (fun k => val_main_v75 (F := Ideal) x0 x1 x2 x3 x4 x5 x6 (ix2 0 k)) (fun k o => val_main_v76 (F := Ideal) x7 (ix2 k o))
          (fun o => x8 (ix1 o)) o := by
  rw [val_main_v79_apply, val_main_v77_apply, val_main_v78_apply]
  simp only [l77, r77, i78, Ideal.addf_def]
  rfl

/-- Putting logit k back into the one row index gives the entry (0, k). -/
theorem lift_logits (h : S1x10.Reduces [1] S1) (k : Fin (S1x10.size 1)) :
    h.lift (ix1 (0 : Fin 1)) k = ix2 (0 : Fin 1) (⟨k.val, k.isLt⟩ : Fin 10) := by
  funext c; apply Fin.ext; fin_cases c <;> rfl

/-- The reference's row maximum is the fold of max over the ten logits. -/
theorem max_at (hR : S1x10.Reduces [1] S1) :
    val_main_call5_v0 (F := Ideal) x0 x1 x2 x3 x4 x5 x6 x7 x8 (ix1 0)
      = rowMax fun o => val_main_v79 (F := Ideal) x0 x1 x2 x3 x4 x5 x6 x7 x8 (ix2 0 o) := by
  unfold val_main_call5_v0
  generalize val_main_v79 (F := Ideal) x0 x1 x2 x3 x4 x5 x6 x7 x8 = z
  rw [Host.reduce_eq_fold_single (FloatOps.maximumf (F := Ideal) (φ := .f32)) z _ reducesTo_S1x10_S1_d1 hR h_S_]
  have hf : (z ∘ hR.lift (ix1 (0 : Fin 1))) = fun o : Fin 10 => z (ix2 0 o) := funext fun k => congrArg z (lift_logits hR k)
  rw [hf]
  rfl

section Idx2
variable (o k : Fin 10) (u : Fin 1)
theorem i34 : idx_main_call5_v3 (idx_main_call5_v4 (ix2 u o)) = ix1 (0 : Fin 1) :=
  funext fun a => Fin.ext (by match a with | ⟨0, _⟩ => rfl)
theorem i810 : idx_main_call5_v8 (idx_main_call5_v10 (ix2 u o)) = ix1 (0 : Fin 1) :=
  funext fun a => Fin.ext (by match a with | ⟨0, _⟩ => rfl)
theorem i7 : idx_main_call5_v7 (ix1 u) k = ix2 u k :=
  funext fun a => Fin.ext (by match a with | ⟨0, _⟩ => rfl | ⟨1, _⟩ => rfl)
end Idx2

/-- The log-softmax at o. -/
theorem lsm_at (o : Fin 10) :
    val_main_v80 (F := Ideal) x0 x1 x2 x3 x4 x5 x6 x7 x8 (ix2 0 o)
      = logSoftmax (fun o => val_main_v79 (F := Ideal) x0 x1 x2 x3 x4 x5 x6 x7 x8 (ix2 0 o)) o := by
  simp only [val_main_v80_apply, val_main_call5_v10_apply, val_main_call5_v9_apply, val_main_call5_v8_apply,
    val_main_call5_v7_apply, val_main_call5_v6_apply, val_main_call5_v5_apply, val_main_call5_v4_apply,
    val_main_call5_v3_apply, val_main_call5_v2_apply, val_main_call5_v1_apply, val_main_call5_cst_0_apply,
    val_main_call5_cst_1_apply, i34, i810, i7, max_at x0 x1 x2 x3 x4 x5 x6 x7 x8 (by decide),
    Ideal.subf_def, Ideal.maximumf_def, Ideal.ofBits_def, Ideal.ofBits_zero_f32, zero_add, Ideal.hostUnary_exp_def,
    Ideal.hostUnary_log_def, max_init_rowMax]
  rfl

/-- The reference's result at logit o: the logits of its own intermediate arrays. -/
theorem ref_eq (o : Fin 10) :
    val_main_v80 (F := Ideal) x0 x1 x2 x3 x4 x5 x6 x7 x8 (ix2 0 o)
      = logits (fun r k => val_main_v21 (F := Ideal) x0 x1 (ix2 r k)) (fun r k => x0 (ix2 r k))
          (fun k j => val_main_v54 (F := Ideal) x2 (ix2 k j)) (fun k j => val_main_v58 (F := Ideal) x3 (ix2 k j))
          (fun j => val_main_v62 (F := Ideal) x4 (ix1 j)) (fun k j => val_main_v71 (F := Ideal) x5 (ix2 k j))
          (fun j => x6 (ix1 j)) (fun k o => val_main_v76 (F := Ideal) x7 (ix2 k o)) (fun o => x8 (ix1 o)) o := by
  have h4 : (fun o => val_main_v79 (F := Ideal) x0 x1 x2 x3 x4 x5 x6 x7 x8 (ix2 0 o)) = _ :=
    funext (dense2_at x0 x1 x2 x3 x4 x5 x6 x7 x8)
  have h3 : (fun k => val_main_v75 (F := Ideal) x0 x1 x2 x3 x4 x5 x6 (ix2 0 k)) = _ :=
    funext (dense1_at x0 x1 x2 x3 x4 x5 x6)
  have h2 : (fun k => val_main_v70 (F := Ideal) x0 x1 x2 x3 x4 (ix2 0 k)) = _ :=
    funext (pooled_at x0 x1 x2 x3 x4)
  have h1 : (fun r j => val_main_v66 (F := Ideal) x0 x1 x2 x3 x4 (ix2 r j)) = _ :=
    funext fun r => funext fun j => hidden_at x0 x1 x2 x3 x4 r j
  rw [lsm_at, h4, h3, h2, h1]
  rfl

/-- The result both programs end with, as one function of the nine argument arrays. -/
def result : (⟨S1x10, .f32⟩ : BufTy).Contents (Elt Ideal) := fun i =>
  logits (fun r k => val_main_v21 (F := Ideal) x0 x1 (ix2 r k)) (fun r k => x0 (ix2 r k))
    (fun k j => val_main_v54 (F := Ideal) x2 (ix2 k j)) (fun k j => val_main_v58 (F := Ideal) x3 (ix2 k j))
    (fun j => val_main_v62 (F := Ideal) x4 (ix1 j)) (fun k j => val_main_v71 (F := Ideal) x5 (ix2 k j))
    (fun j => x6 (ix1 j)) (fun k o => val_main_v76 (F := Ideal) x7 (ix2 k o)) (fun o => x8 (ix1 o))
    (⟨(i 1).val, idx2_lt1 i⟩ : Fin 10)

/-- The reference's result array is that function. -/
theorem ref_result : val_main_v80 (F := Ideal) x0 x1 x2 x3 x4 x5 x6 x7 x8 = result x0 x1 x2 x3 x4 x5 x6 x7 x8 := by
  funext i
  obtain ⟨u, o, rfl⟩ : ∃ (u : Fin 1) (o : Fin 10), i = ix2 u o := ⟨i 0, i 1, eq_ix2 i⟩
  obtain rfl : u = 0 := Subsingleton.elim _ _
  exact ref_eq x0 x1 x2 x3 x4 x5 x6 x7 x8 o

end Cert.ReferenceIdeal.RefAt

end
-- ==== Proof.Final.lean ====
/-
  The kernel's run, read: the result array ends at the one function of the nine arguments.

  The result window is written back once, after the last grid point, and its block is the whole [1,10] array, so the
  array ends at what the last point left in the result buffer.  That is the log-softmax head of the accumulated sums
  of the arrays the region finds, and those arrays are the reference's own intermediate values of the arguments.
-/
import proofs.«135105_j20547123544332_1_alg».proof.Proof.Accum
import proofs.«135105_j20547123544332_1_alg».proof.Proof.Arrays
import proofs.«135105_j20547123544332_1_alg».proof.Proof.RefAt
import proofs.«135105_j20547123544332_1_alg».proof.Proof.Gen.KernelIdeal.Value
import Idealize.ShloMosaic.Lib.ValueLayout

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.SageHead Cert.KernelIdeal.Accum

variable (m : (ℓ : Loc nD τ sig) → Buf (Elt Ideal) ℓ) (ρ : Dev nD → PrngReg)

theorem h24 : 24 < cfg0.N := by rw [show cfg0.N = 25 from N_0]; decide

/-- The last grid point. -/
abbrev lastPt : Fin cfg0.N := ⟨24, h24⟩

/-- What the last point leaves in the result buffer, as contents of the result array (its one block is the array). -/
abbrev resultBuf (c : Dev nD) : Buf (Elt Ideal) ((c : Thread nD τ).loc main_v35) := (outsAt0 m c 24 h24).1

/-- The one write-back, after the last point, writes it: block (0, 0) of the [1,10] array read through zero offsets
    is the array. -/
theorem flushed_eq (c : Dev nD) (t : Fin cfg0.N) (hf : (cfg0.win 9).flush t = true) :
    (dats m 0 c).flushed 9 t = ((cfg0.win 9).blk t).view.read (Elt Ideal) (resultBuf m c) := by
  have hN : cfg0.N = 25 := N_0
  have ht : t.val = 24 := by have := (flush0_9 t).mp hf; have := t.isLt; omega
  obtain rfl : t = lastPt := Fin.ext ht
  show (cfg0.win 9).cut (grid0.coords lastPt) ((dats m 0 c).after 9 lastPt) = _
  rw [after0_9]
  have hz' : (fun a => win0_9.index lastPt a * main_v35.ty.shape.size a) = fun _ => 0 :=
    funext fun a => by fin_cases a <;> decide
  exact (Memref.read_access_unit_zero (Elt Ideal) main_v35 hz' (fun a => by rw [congrFun hz' a]; simp) (resultBuf m c)).symm

/-- So the result array ends at what the last point left. -/
theorem final (c : Dev nD) : (dats m 0 c).arrAt 9 cfg0.N = resultBuf m c :=
  (dats m 0 c).arrAt_eq_of_cover 9 (resultBuf m c) (flushed_eq m c) fun i =>
    ⟨lastPt, (flush0_9 lastPt).mpr rfl, by
      show i ∈ ((View.whole main_v35).slice (win0_9.rect lastPt)).set
      rw [View.set_slice_whole, Rect.mem_set_unit]
      intro a
      have h0 : (i 0 : Nat) < 1 := (i 0).isLt
      have h1 : (i 1 : Nat) < 10 := (i 1).isLt
      match a with
      | ⟨0, _⟩ =>
        show win0_9.index lastPt 0 * win0_9.size 0 ≤ (i 0 : Nat) ∧ (i 0 : Nat) < win0_9.index lastPt 0 * win0_9.size 0 + win0_9.xsize (grid0.coords lastPt) 0
        rw [show win0_9.index lastPt 0 * win0_9.size 0 = 0 from by decide +kernel, show win0_9.xsize (grid0.coords lastPt) 0 = 1 from by decide +kernel]; omega
      | ⟨1, _⟩ =>
        show win0_9.index lastPt 1 * win0_9.size 1 ≤ (i 1 : Nat) ∧ (i 1 : Nat) < win0_9.index lastPt 1 * win0_9.size 1 + win0_9.xsize (grid0.coords lastPt) 1
        rw [show win0_9.index lastPt 1 * win0_9.size 1 = 0 from by decide +kernel, show win0_9.xsize (grid0.coords lastPt) 1 = 10 from by decide +kernel]; omega⟩

/-- The run, read: the result array at the last point's contents, the arguments unchanged. -/
theorem run : θ_run defs (onTc (τ := τ) (main (F := Ideal))) ⟨m, fun _ => 0, ρ⟩ fun r => ∀ c : Dev nD,
      r.2.mem ((c : Thread nD τ).loc main_v35) = resultBuf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

/-- The last point's contents are the one function of the nine arguments that the reference computes. -/
theorem resultBuf_eq (c : Dev nD) :
    resultBuf m c = Cert.ReferenceIdeal.RefAt.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  funext i
  obtain ⟨u, o, rfl⟩ : ∃ (u : Fin 1) (o : Fin 10), i = ix2 u o := ⟨i 0, i 1, eq_ix2 i⟩
  obtain rfl : u = 0 := Subsingleton.elim _ _
  refine (result_eq m c h24 o).trans ?_
  have ea : aggA m c = Cert.ReferenceIdeal.Read.val_main_v21 (F := Ideal) (m ((c : Thread nD τ).loc main_arg0)) (m ((c : Thread nD τ).loc main_arg1)) := Arrays.agg_eq m c
  have ex : xA m c = m ((c : Thread nD τ).loc main_arg0) := V_main_arg0 m c
  have el : wlA m c = Cert.ReferenceIdeal.Read.val_main_v54 (F := Ideal) (m ((c : Thread nD τ).loc main_arg2)) := Arrays.wl_eq m c
  have er : wrA m c = Cert.ReferenceIdeal.Read.val_main_v58 (F := Ideal) (m ((c : Thread nD τ).loc main_arg3)) := Arrays.wr_eq m c
  have e1 : w1A m c = Cert.ReferenceIdeal.Read.val_main_v71 (F := Ideal) (m ((c : Thread nD τ).loc main_arg5)) := Arrays.w1_eq m c
  have e2 : w2A m c = Cert.ReferenceIdeal.Read.val_main_v76 (F := Ideal) (m ((c : Thread nD τ).loc main_arg7)) := Arrays.w2_eq m c
  have eb : ∀ j : Fin 256, biasA m c (ix2 0 j) = Cert.ReferenceIdeal.Read.val_main_v62 (F := Ideal) (m ((c : Thread nD τ).loc main_arg4)) (ix1 j) := fun j => by
    rw [show biasA m c = _ from Arrays.bias_eq m c]; exact shapeCast_a_1a_apply _ _ 0 j
  have eb1 : ∀ j : Fin 256, b1A m c (ix2 0 j) = (m ((c : Thread nD τ).loc main_arg6)) (ix1 j) := fun j => by
    rw [show b1A m c = _ from Arrays.b1_eq m c]; exact shapeCast_a_1a_apply _ _ 0 j
  have eb2 : ∀ o : Fin 10, b2A m c (ix2 0 o) = (m ((c : Thread nD τ).loc main_arg8)) (ix1 o) := fun o => by
    rw [show b2A m c = _ from Arrays.b2_eq m c]; exact shapeCast_a_1a_apply _ _ 0 o
  rw [ea, ex, el, er, e1, e2]
  simp only [eb, eb1, eb2]
  rfl

end Cert.KernelIdeal.Final

end
-- ==== Proof.lean ====
/-
  GraphSAGE layer, mean pooling and a two-layer head with log-softmax: the kernel against its jnp reference.

  Both programs first form, with the same host operations, the mean of every node's neighbour features.  The kernel
  then walks the 100000 nodes in 25 blocks of 4000 rows: at each block it adds to a carried [1,256] accumulator the
  column sums of the block's hidden features  max (agg·Wl + x·Wr + b) 0,  and after the last block it scales the
  accumulator by the reciprocal 1/100000, applies the two dense layers and the log-softmax, and writes the [1,10]
  result.  The reference computes the hidden features of all nodes at once, sums them over the nodes, divides by
  100000 and applies the same head.  Over the extended reals a change of float format is the identity, the products
  are the plain sums of products, a sum over all rows is the sum of the 25 block sums, and dividing by 100000 is
  multiplying by 1/100000: the two results are one function of the nine arguments (Spec.lean states it; Accum.lean and
  Final.lean read the kernel's run to it, RefAt.lean the reference's).  No finiteness of the inputs is used.

  The three frames are the generated runs; the idealization's one rewrite names the reciprocal 1/100000.
-/
import proofs.«135105_j20547123544332_1_alg».proof.Defs
import proofs.«135105_j20547123544332_1_alg».proof.Proof.Gen.Kernel
import proofs.«135105_j20547123544332_1_alg».proof.Proof.Gen.Kernel.Skeleton
import proofs.«135105_j20547123544332_1_alg».proof.Proof.Gen.Kernel.Launch
import proofs.«135105_j20547123544332_1_alg».proof.Proof.Gen.Kernel.Points
import proofs.«135105_j20547123544332_1_alg».proof.Proof.Gen.Kernel.Frame
import proofs.«135105_j20547123544332_1_alg».proof.Proof.Gen.KernelIdeal
import proofs.«135105_j20547123544332_1_alg».proof.Proof.Gen.KernelIdeal.Skeleton
import proofs.«135105_j20547123544332_1_alg».proof.Proof.Gen.KernelIdeal.Launch
import proofs.«135105_j20547123544332_1_alg».proof.Proof.Gen.KernelIdeal.Points
import proofs.«135105_j20547123544332_1_alg».proof.Proof.Gen.KernelIdeal.Frame
import proofs.«135105_j20547123544332_1_alg».proof.Proof.Gen.ReferenceIdeal
import proofs.«135105_j20547123544332_1_alg».proof.Proof.Gen.Pre_finite_inputs
import proofs.«135105_j20547123544332_1_alg».proof.Proof.Gen.KernelIdeal.Value
import proofs.«135105_j20547123544332_1_alg».proof.Proof.Gen.ReferenceIdeal.Run
import proofs.«135105_j20547123544332_1_alg».proof.Proof.Gen.ReferenceIdeal.Read
import proofs.«135105_j20547123544332_1_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the literal 9.99999974e-6 is read as the rational 1/100000. -/
theorem preserves : Cert.preserves_Kernel_KernelIdeal :=
  IdealRules.named_const.statement Cert.KernelIdeal.κ "inv_100000" .f32 0x3727C5AC#32 ((1 / 100000 : ℝ) : EReal) rfl

/-- Both runs end with the result array at the one function of the nine arguments, which agree. -/
theorem algebraic : Cert.algebraic_KernelIdeal_ReferenceIdeal := by
  intro m ρ m' ρ' _ hagree
  refine ⟨fun c => Cert.KernelIdeal.Final.resultBuf m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v80_eq, Cert.ReferenceIdeal.RefAt.ref_result,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.KernelIdeal.Final.resultBuf_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
